-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x192 : Shape := ⟨2, ![262144, 192]⟩
abbrev S262144 : Shape := ⟨1, ![262144]⟩
abbrev S_ : Shape := ⟨0, ![]⟩

class Facts : Prop where
  bcast_S_S262144x192 : S_.BroadcastsInDim S262144x192 (![] : Fin 0 → Fin S262144x192.rank)
  reducesTo_S262144x192_S_d0_1 : S262144x192.ReducesTo [0, 1] S_
  h_S_ : 0 < S_.numel
  bcast_S_S262144 : S_.BroadcastsInDim S262144 (![] : Fin 0 → Fin S262144.rank)
  reducesTo_S262144_S_d0 : S262144.ReducesTo [0] S_

variable [Facts]

def fn {F : FTy → Type} [FloatOps F] (main_arg0 : FVec F S262144x192 .f32) (main_arg1 : IVec S262144 32) : IVec S_ 1 :=
  let main_v0 : FVec F S262144x192 .f32 := Host.absf main_arg0
  let main_cst : FVec F S_ .f32 := constant S_ .f32 0x7F800000#32
  let main_v1 : FVec F S262144x192 .f32 := broadcastInDim S262144x192 ![] bcast_S_S262144x192 main_cst
  let main_v2 : IVec S262144x192 1 := cmpf .olt main_v0 main_v1
  let main_c : IVec S_ 1 := constantI S_ 1 1#1
  let main_v3 : IVec S_ 1 := (fun x v => Host.reduce IntOp.andi x v reducesTo_S262144x192_S_d0_1 h_S_) main_v2 main_c
  let main_c_0 : IVec S_ 32 := constantI S_ 32 0#32
  let main_v4 : IVec S262144 32 := broadcastInDim S262144 ![] bcast_S_S262144 main_c_0
  let main_v5 : IVec S262144 1 := cmpi .sge main_arg1 main_v4
  let main_c_1 : IVec S_ 32 := constantI S_ 32 64#32
  let main_v6 : IVec S262144 32 := broadcastInDim S262144 ![] bcast_S_S262144 main_c_1
  let main_v7 : IVec S262144 1 := cmpi .slt main_arg1 main_v6
  let main_v8 : IVec S262144 1 := andi main_v5 main_v7
  let main_c_2 : IVec S_ 1 := constantI S_ 1 1#1
  let main_v9 : IVec S_ 1 := (fun x v => Host.reduce IntOp.andi x v reducesTo_S262144_S_d0 h_S_) main_v8 main_c_2
  let main_v10 : IVec S_ 1 := andi main_v3 main_v9
  main_v10
-- ==== Kernel.lean ====
abbrev S262144x192 : Shape := ⟨2, ![262144, 192]⟩
abbrev S262144 : Shape := ⟨1, ![262144]⟩
abbrev S2x131072x192 : Shape := ⟨3, ![2, 131072, 192]⟩
abbrev S2x1024x128 : Shape := ⟨3, ![2, 1024, 128]⟩
abbrev S2x64x192 : Shape := ⟨3, ![2, 64, 192]⟩
abbrev S2x1x64 : Shape := ⟨3, ![2, 1, 64]⟩
abbrev S1x8192x192 : Shape := ⟨3, ![1, 8192, 192]⟩
abbrev S1x64x128 : Shape := ⟨3, ![1, 64, 128]⟩
abbrev S1x64x192 : Shape := ⟨3, ![1, 64, 192]⟩
abbrev S1x1x64 : Shape := ⟨3, ![1, 1, 64]⟩
abbrev S64x192 : Shape := ⟨2, ![64, 192]⟩
abbrev S1x64 : Shape := ⟨2, ![1, 64]⟩
abbrev S64x128 : Shape := ⟨2, ![64, 128]⟩
abbrev S8192x1 : Shape := ⟨2, ![8192, 1]⟩
abbrev S8192x64 : Shape := ⟨2, ![8192, 64]⟩
abbrev S8192x192 : Shape := ⟨2, ![8192, 192]⟩
abbrev S64 : Shape := ⟨1, ![64]⟩
abbrev S_ : Shape := ⟨0, ![]⟩
abbrev S64x1 : Shape := ⟨2, ![64, 1]⟩
abbrev S2x1x1 : Shape := ⟨3, ![2, 1, 1]⟩
abbrev S1x1x1 : Shape := ⟨3, ![1, 1, 1]⟩
abbrev S1x1 : Shape := ⟨2, ![1, 1]⟩
abbrev S8192 : Shape := ⟨1, ![8192]⟩
abbrev S1 : Shape := ⟨1, ![1]⟩
abbrev S64x1x192 : Shape := ⟨3, ![64, 1, 192]⟩
abbrev S64x64x192 : Shape := ⟨3, ![64, 64, 192]⟩
abbrev S64x64 : Shape := ⟨2, ![64, 64]⟩

abbrev nBuf : Space → Nat
  | .hbm => 43
  | .vmem => 15
  | .smem => 0
  | _ => 0

abbrev bufTy : (tb : Table) → Fin (tcTables nBuf tb) → BufTy
  | .hbm, ⟨0, _⟩ => ⟨S262144x192, .f32⟩
  | .hbm, ⟨1, _⟩ => ⟨S262144, .i32⟩
  | .hbm, ⟨2, _⟩ => ⟨S2x131072x192, .f32⟩
  | .hbm, ⟨3, _⟩ => ⟨S2x1024x128, .i32⟩
  | .hbm, ⟨4, _⟩ => ⟨S2x64x192, .f32⟩
  | .hbm, ⟨5, _⟩ => ⟨S2x1x64, .f32⟩
  | .hbm, ⟨6, _⟩ => ⟨S_, .f32⟩
  | .hbm, ⟨7, _⟩ => ⟨S64x192, .f32⟩
  | .hbm, ⟨8, _⟩ => ⟨S_, .f32⟩
  | .hbm, ⟨9, _⟩ => ⟨S1x64, .f32⟩
  | .hbm, ⟨10, _⟩ => ⟨S64, .f32⟩
  | .hbm, ⟨11, _⟩ => ⟨S64x1, .f32⟩
  | .hbm, ⟨12, _⟩ => ⟨S64x192, .f32⟩
  | .hbm, ⟨13, _⟩ => ⟨S64x192, .f32⟩
  | .hbm, ⟨14, _⟩ => ⟨S2x1x1, .f32⟩
  | .hbm, ⟨15, _⟩ => ⟨S_, .f32⟩
  | .hbm, ⟨16, _⟩ => ⟨S_, .f32⟩
  | .hbm, ⟨17, _⟩ => ⟨S64x1x192, .f32⟩
  | .hbm, ⟨18, _⟩ => ⟨S1x64x192, .f32⟩
  | .hbm, ⟨19, _⟩ => ⟨S64x64x192, .f32⟩
  | .hbm, ⟨20, _⟩ => ⟨S64x64x192, .f32⟩
  | .hbm, ⟨21, _⟩ => ⟨S64x64x192, .f32⟩
  | .hbm, ⟨22, _⟩ => ⟨S_, .f32⟩
  | .hbm, ⟨23, _⟩ => ⟨S64x64x192, .f32⟩
  | .hbm, ⟨24, _⟩ => ⟨S64x64x192, .f32⟩
  | .hbm, ⟨25, _⟩ => ⟨S64x64x192, .f32⟩
  | .hbm, ⟨26, _⟩ => ⟨S_, .f32⟩
  | .hbm, ⟨27, _⟩ => ⟨S64x64, .f32⟩
  | .hbm, ⟨28, _⟩ => ⟨S64x64, .f32⟩
  | .hbm, ⟨29, _⟩ => ⟨S64x64, .i32⟩
  | .hbm, ⟨30, _⟩ => ⟨S64x64, .i32⟩
  | .hbm, ⟨31, _⟩ => ⟨S_, .i32⟩
  | .hbm, ⟨32, _⟩ => ⟨S64x64, .i32⟩
  | .hbm, ⟨33, _⟩ => ⟨S64x64, .i32⟩
  | .hbm, ⟨34, _⟩ => ⟨S64x64, .i1⟩
  | .hbm, ⟨35, _⟩ => ⟨S64x64, .f32⟩
  | .hbm, ⟨36, _⟩ => ⟨S_, .f32⟩
  | .hbm, ⟨37, _⟩ => ⟨S64x64, .f32⟩
  | .hbm, ⟨38, _⟩ => ⟨S64x64, .f32⟩
  | .hbm, ⟨39, _⟩ => ⟨S64x64, .f32⟩
  | .hbm, ⟨40, _⟩ => ⟨S_, .f32⟩
  | .hbm, ⟨41, _⟩ => ⟨S_, .f32⟩
  | .hbm, ⟨42, _⟩ => ⟨S_, .f32⟩
  | .local _ .vmem, ⟨0, _⟩ => ⟨S1x8192x192, .f32⟩
  | .local _ .vmem, ⟨1, _⟩ => ⟨S1x8192x192, .f32⟩
  | .local _ .vmem, ⟨2, _⟩ => ⟨S1x64x128, .i32⟩
  | .local _ .vmem, ⟨3, _⟩ => ⟨S1x64x128, .i32⟩
  | .local _ .vmem, ⟨4, _⟩ => ⟨S1x64x192, .f32⟩
  | .local _ .vmem, ⟨5, _⟩ => ⟨S1x64x192, .f32⟩
  | .local _ .vmem, ⟨6, _⟩ => ⟨S1x1x64, .f32⟩
  | .local _ .vmem, ⟨7, _⟩ => ⟨S1x1x64, .f32⟩
  | .local _ .vmem, ⟨8, _⟩ => ⟨S1x8192x192, .f32⟩
  | .local _ .vmem, ⟨9, _⟩ => ⟨S1x8192x192, .f32⟩
  | .local _ .vmem, ⟨10, _⟩ => ⟨S1x64x128, .i32⟩
  | .local _ .vmem, ⟨11, _⟩ => ⟨S1x64x128, .i32⟩
  | .local _ .vmem, ⟨12, _⟩ => ⟨S64x192, .f32⟩
  | .local _ .vmem, ⟨13, _⟩ => ⟨S1x1x1, .f32⟩
  | .local _ .vmem, ⟨14, _⟩ => ⟨S1x1x1, .f32⟩
  | _, _ => ⟨S262144x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x8192x192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x64x128 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S64x192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x1x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S262144x192_S2x131072x192 : S262144x192.ShapeCasts S2x131072x192
  shapeCasts_S262144_S2x1024x128 : S262144.ShapeCasts S2x1024x128
  inb_S1x64x192_S1x64x192_0_0_0 : ∀ a, (![0, 0, 0] : Fin 3 → Nat) a + S1x64x192.size a ≤ S1x64x192.size a
  h_S1x64x192 : 0 < S1x64x192.numel
  shapeCasts_S1x64x192_S64x192 : S1x64x192.ShapeCasts S64x192
  shapeCasts_S64x192_S1x64x192 : S64x192.ShapeCasts S1x64x192
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  shapeCasts_S1x64_S1x1x64 : S1x64.ShapeCasts S1x1x64
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  shapeCasts_S64x128_S8192x1 : S64x128.ShapeCasts S8192x1
  iota_S1x64_d1_w32 : S1x64.Iotas .tc 32 [1]
  broadcasts_S8192x1_S8192x64 : S8192x1.Broadcasts S8192x64
  broadcasts_S1x64_S8192x64 : S1x64.Broadcasts S8192x64
  natLt_1_32 : 1 < 32
  bitsLt_bf16_f32 : FTy.bits .bf16 < FTy.bits .f32
  inb_S1x8192x192_S1x8192x192_0_0_0 : ∀ a, (![0, 0, 0] : Fin 3 → Nat) a + S1x8192x192.size a ≤ S1x8192x192.size a
  h_S1x8192x192 : 0 < S1x8192x192.numel
  shapeCasts_S1x8192x192_S8192x192 : S1x8192x192.ShapeCasts S8192x192
  reduces_S8192x64_S64 : S8192x64.Reduces [0] S64
  shapeCasts_S64_S1x64 : S64.ShapeCasts S1x64
  reducesTo_S2x64x192_S64x192_d0 : S2x64x192.ReducesTo [0] S64x192
  h_S_ : 0 < S_.numel
  reducesTo_S2x1x64_S1x64_d0 : S2x1x64.ReducesTo [0] S1x64
  shapeCasts_S1x64_S64 : S1x64.ShapeCasts S64
  bcast_S64_S64x1_0 : S64.BroadcastsInDim S64x1 (![0] : Fin 1 → Fin S64x1.rank)
  bcast_S64x1_S64x192_0_1 : S64x1.BroadcastsInDim S64x192 (![0, 1] : Fin 2 → Fin S64x192.rank)
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S64x192_S64x192_0_0 : ∀ a, (![0, 0] : Fin 2 → Nat) a + S64x192.size a ≤ S64x192.size a
  h_S64x192 : 0 < S64x192.numel
  shapeCasts_S64x192_S64x192 : S64x192.ShapeCasts S64x192
  reduces_S8192x192_S8192 : S8192x192.Reduces [1] S8192
  shapeCasts_S8192_S8192x1 : S8192.ShapeCasts S8192x1
  reduces_S8192x1_S1 : S8192x1.Reduces [0] S1
  shapeCasts_S1_S1x1 : S1.ShapeCasts S1x1
  reducesTo_S2x1x1_S_d0_1_2 : S2x1x1.ReducesTo [0, 1, 2] S_
  bcast_S64x192_S64x1x192_0_2 : S64x192.BroadcastsInDim S64x1x192 (![0, 2] : Fin 2 → Fin S64x1x192.rank)
  bcast_S64x192_S1x64x192_1_2 : S64x192.BroadcastsInDim S1x64x192 (![1, 2] : Fin 2 → Fin S1x64x192.rank)
  bcast_S64x1x192_S64x64x192_0_1_2 : S64x1x192.BroadcastsInDim S64x64x192 (![0, 1, 2] : Fin 3 → Fin S64x64x192.rank)
  bcast_S1x64x192_S64x64x192_0_1_2 : S1x64x192.BroadcastsInDim S64x64x192 (![0, 1, 2] : Fin 3 → Fin S64x64x192.rank)
  bcast_S_S64x64x192 : S_.BroadcastsInDim S64x64x192 (![] : Fin 0 → Fin S64x64x192.rank)
  reducesTo_S64x64x192_S64x64_d2 : S64x64x192.ReducesTo [2] S64x64
  bcast_S_S64x64 : S_.BroadcastsInDim S64x64 (![] : Fin 0 → Fin S64x64.rank)
  reducesTo_S64x64_S_d0_1 : S64x64.ReducesTo [0, 1] S_
  dot_S8192x64_S8192x192_S64x192_0_0_1_1_n_n_wf : DotDims.WF S8192x64 S8192x192 S64x192 [0] [0] [1] [1] [] []
  dot_S8192x64_S64x192_S8192x192_1_0_0_1_n_n_wf : DotDims.WF S8192x64 S64x192 S8192x192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x192.size a ≤ S2x131072x192.size a
  hwx0_0 : ∀ i : grid0.Coords, EltTy.bits .f32 = 32 ∨ (Rect.block (s := S2x131072x192) S1x8192x192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x128.size a ≤ S2x1024x128.size a
  hwx0_1 : ∀ i : grid0.Coords, EltTy.bits .i32 = 32 ∨ (Rect.block (s := S2x1024x128) S1x64x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x192.size a ≤ S2x64x192.size a
  hwx0_2 : ∀ i : grid0.Coords, EltTy.bits .f32 = 32 ∨ (Rect.block (s := S2x64x192) S1x64x192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x64.size a ≤ S2x1x64.size a
  hwx0_3 : ∀ i : grid0.Coords, EltTy.bits .f32 = 32 ∨ (Rect.block (s := S2x1x64) S1x1x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x8192x192.size a ≤ S2x131072x192.size a
  hwx1_0 : ∀ i : grid1.Coords, EltTy.bits .f32 = 32 ∨ (Rect.block (s := S2x131072x192) S1x8192x192.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x128.size a ≤ S2x1024x128.size a
  hwx1_1 : ∀ i : grid1.Coords, EltTy.bits .i32 = 32 ∨ (Rect.block (s := S2x1024x128) S1x64x128.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x192.size a ≤ S64x192.size a
  hwx1_2 : ∀ i : grid1.Coords, EltTy.bits .f32 = 32 ∨ (Rect.block (s := S64x192) S64x192.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x1.size a ≤ S2x1x1.size a
  hwx1_3 : ∀ i : grid1.Coords, EltTy.bits .f32 = 32 ∨ (Rect.block (s := S2x1x1) S1x1x1.size (cc1_transform_3 i) (hinb1_3 i)).WholeWords (EltTy.packing .f32)

variable [Facts₀]

def dot_S8192x64_S8192x192_S64x192_0_0_1_1_n_n : DotDims S8192x64 S8192x192 S64x192 where
  lhsContracting := [0]
  rhsContracting := [0]
  lhsNonContracting := [1]
  rhsNonContracting := [1]
  lhsBatch := []
  rhsBatch := []
  wf := dot_S8192x64_S8192x192_S64x192_0_0_1_1_n_n_wf
def dot_S8192x64_S64x192_S8192x192_1_0_0_1_n_n : DotDims S8192x64 S64x192 S8192x192 where
  lhsContracting := [1]
  rhsContracting := [0]
  lhsNonContracting := [0]
  rhsNonContracting := [1]
  lhsBatch := []
  rhsBatch := []
  wf := dot_S8192x64_S64x192_S8192x192_1_0_0_1_n_n_wf

abbrev win0_0 : Pipeline.Window sig grid0 :=
  Pipeline.Window.ofSpec (Memref.whole main_v0) S1x8192x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x64x192.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S1x8192x192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x64x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S64x192.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x1x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S262144x192 : Shape := ⟨2, ![262144, 192]⟩
abbrev S262144 : Shape := ⟨1, ![262144]⟩
abbrev S_ : Shape := ⟨0, ![]⟩
abbrev S64x192 : Shape := ⟨2, ![64, 192]⟩
abbrev S262144x1 : Shape := ⟨2, ![262144, 1]⟩
abbrev S64x1 : Shape := ⟨2, ![64, 1]⟩
abbrev S64x1x192 : Shape := ⟨3, ![64, 1, 192]⟩
abbrev S1x64x192 : Shape := ⟨3, ![1, 64, 192]⟩
abbrev S64x64x192 : Shape := ⟨3, ![64, 64, 192]⟩
abbrev S64x64 : Shape := ⟨2, ![64, 64]⟩

abbrev nBuf : Space → Nat
  | .hbm => 60
  | .vmem => 0
  | .smem => 0
  | _ => 0

abbrev bufTy : (tb : Table) → Fin (tcTables nBuf tb) → BufTy
  | .hbm, ⟨0, _⟩ => ⟨S262144x192, .f32⟩
  | .hbm, ⟨1, _⟩ => ⟨S262144, .i32⟩
  | .hbm, ⟨2, _⟩ => ⟨S_, .f32⟩
  | .hbm, ⟨3, _⟩ => ⟨S64x192, .f32⟩
  | .hbm, ⟨4, _⟩ => ⟨S262144x1, .i32⟩
  | .hbm, ⟨5, _⟩ => ⟨S64x192, .f32⟩
  | .hbm, ⟨6, _⟩ => ⟨S262144x1, .f32⟩
  | .hbm, ⟨7, _⟩ => ⟨S_, .f32⟩
  | .hbm, ⟨8, _⟩ => ⟨S262144x1, .f32⟩
  | .hbm, ⟨9, _⟩ => ⟨S_, .f32⟩
  | .hbm, ⟨10, _⟩ => ⟨S64x1, .f32⟩
  | .hbm, ⟨11, _⟩ => ⟨S262144x1, .i32⟩
  | .hbm, ⟨12, _⟩ => ⟨S64x1, .f32⟩
  | .hbm, ⟨13, _⟩ => ⟨S64x192, .f32⟩
  | .hbm, ⟨14, _⟩ => ⟨S64x192, .f32⟩
  | .hbm, ⟨15, _⟩ => ⟨S_, .i32⟩
  | .hbm, ⟨16, _⟩ => ⟨S262144, .i32⟩
  | .hbm, ⟨17, _⟩ => ⟨S262144, .i1⟩
  | .hbm, ⟨18, _⟩ => ⟨S_, .i32⟩
  | .hbm, ⟨19, _⟩ => ⟨S262144, .i32⟩
  | .hbm, ⟨20, _⟩ => ⟨S262144, .i32⟩
  | .hbm, ⟨21, _⟩ => ⟨S262144, .i32⟩
  | .hbm, ⟨22, _⟩ => ⟨S262144x1, .i32⟩
  | .hbm, ⟨23, _⟩ => ⟨S262144x192, .f32⟩
  | .hbm, ⟨24, _⟩ => ⟨S262144x192, .f32⟩
  | .hbm, ⟨25, _⟩ => ⟨S_, .f32⟩
  | .hbm, ⟨26, _⟩ => ⟨S262144x192, .f32⟩
  | .hbm, ⟨27, _⟩ => ⟨S262144x192, .f32⟩
  | .hbm, ⟨28, _⟩ => ⟨S262144x192, .f32⟩
  | .hbm, ⟨29, _⟩ => ⟨S_, .f32⟩
  | .hbm, ⟨30, _⟩ => ⟨S262144, .f32⟩
  | .hbm, ⟨31, _⟩ => ⟨S262144, .f32⟩
  | .hbm, ⟨32, _⟩ => ⟨S_, .f32⟩
  | .hbm, ⟨33, _⟩ => ⟨S_, .f32⟩
  | .hbm, ⟨34, _⟩ => ⟨S64x1x192, .f32⟩
  | .hbm, ⟨35, _⟩ => ⟨S1x64x192, .f32⟩
  | .hbm, ⟨36, _⟩ => ⟨S64x64x192, .f32⟩
  | .hbm, ⟨37, _⟩ => ⟨S64x64x192, .f32⟩
  | .hbm, ⟨38, _⟩ => ⟨S64x64x192, .f32⟩
  | .hbm, ⟨39, _⟩ => ⟨S_, .f32⟩
  | .hbm, ⟨40, _⟩ => ⟨S64x64x192, .f32⟩
  | .hbm, ⟨41, _⟩ => ⟨S64x64x192, .f32⟩
  | .hbm, ⟨42, _⟩ => ⟨S64x64x192, .f32⟩
  | .hbm, ⟨43, _⟩ => ⟨S_, .f32⟩
  | .hbm, ⟨44, _⟩ => ⟨S64x64, .f32⟩
  | .hbm, ⟨45, _⟩ => ⟨S64x64, .f32⟩
  | .hbm, ⟨46, _⟩ => ⟨S64x64, .i32⟩
  | .hbm, ⟨47, _⟩ => ⟨S64x64, .i32⟩
  | .hbm, ⟨48, _⟩ => ⟨S_, .i32⟩
  | .hbm, ⟨49, _⟩ => ⟨S64x64, .i32⟩
  | .hbm, ⟨50, _⟩ => ⟨S64x64, .i32⟩
  | .hbm, ⟨51, _⟩ => ⟨S64x64, .i1⟩
  | .hbm, ⟨52, _⟩ => ⟨S64x64, .f32⟩
  | .hbm, ⟨53, _⟩ => ⟨S_, .f32⟩
  | .hbm, ⟨54, _⟩ => ⟨S64x64, .f32⟩
  | .hbm, ⟨55, _⟩ => ⟨S64x64, .f32⟩
  | .hbm, ⟨56, _⟩ => ⟨S64x64, .f32⟩
  | .hbm, ⟨57, _⟩ => ⟨S_, .f32⟩
  | .hbm, ⟨58, _⟩ => ⟨S_, .f32⟩
  | .hbm, ⟨59, _⟩ => ⟨S_, .f32⟩
  | _, _ => ⟨S262144x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_8 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_9 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_10 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]

class Facts₀ : Prop where
  bcast_S_S64x192 : S_.BroadcastsInDim S64x192 (![] : Fin 0 → Fin S64x192.rank)
  bcast_S262144_S262144x1_0 : S262144.BroadcastsInDim S262144x1 (![0] : Fin 1 → Fin S262144x1.rank)
  slices_S262144x192_S262144x1_0_0 : S262144x192.Slices ![0, 0] S262144x1
  bcast_S_S262144x1 : S_.BroadcastsInDim S262144x1 (![] : Fin 0 → Fin S262144x1.rank)
  bcast_S_S64x1 : S_.BroadcastsInDim S64x1 (![] : Fin 0 → Fin S64x1.rank)
  bcast_S64x1_S64x192_0_1 : S64x1.BroadcastsInDim S64x192 (![0, 1] : Fin 2 → Fin S64x192.rank)
  bcast_S_S262144 : S_.BroadcastsInDim S262144 (![] : Fin 0 → Fin S262144.rank)
  bcast_S_S262144x192 : S_.BroadcastsInDim S262144x192 (![] : Fin 0 → Fin S262144x192.rank)
  reducesTo_S262144x192_S262144_d1 : S262144x192.ReducesTo [1] S262144
  h_S_ : 0 < S_.numel
  reducesTo_S262144_S_d0 : S262144.ReducesTo [0] S_
  bcast_S64x192_S64x1x192_0_2 : S64x192.BroadcastsInDim S64x1x192 (![0, 2] : Fin 2 → Fin S64x1x192.rank)
  bcast_S64x192_S1x64x192_1_2 : S64x192.BroadcastsInDim S1x64x192 (![1, 2] : Fin 2 → Fin S1x64x192.rank)
  bcast_S64x1x192_S64x64x192_0_1_2 : S64x1x192.BroadcastsInDim S64x64x192 (![0, 1, 2] : Fin 3 → Fin S64x64x192.rank)
  bcast_S1x64x192_S64x64x192_0_1_2 : S1x64x192.BroadcastsInDim S64x64x192 (![0, 1, 2] : Fin 3 → Fin S64x64x192.rank)
  bcast_S_S64x64x192 : S_.BroadcastsInDim S64x64x192 (![] : Fin 0 → Fin S64x64x192.rank)
  reducesTo_S64x64x192_S64x64_d2 : S64x64x192.ReducesTo [2] S64x64
  bcast_S_S64x64 : S_.BroadcastsInDim S64x64 (![] : Fin 0 → Fin S64x64.rank)
  reducesTo_S64x64_S_d0_1 : S64x64.ReducesTo [0, 1] S_
  scatter_S64x192_S262144x1_S262144x192_1_0_0_1_wf : ScatterDims.WF S64x192 S262144x1 S262144x192 [1] [0] [0] 1
  scatter_S64x1_S262144x1_S262144x1_1_0_0_1_wf : ScatterDims.WF S64x1 S262144x1 S262144x1 [1] [0] [0] 1
  gather_S64x192_S262144x1_S262144x192_1_0_n_n_0_1_1192_wf : GatherDims.WF S64x192 S262144x1 S262144x192 [1] [0] [] [0] [] 1 ![1, 192]

variable [Facts₀]

def scatter_S64x192_S262144x1_S262144x192_1_0_0_1 : ScatterDims S64x192 S262144x1 S262144x192 where
  updateWindowDims := [1]
  insertedWindowDims := [0]
  scatterDimsToOperandDims := [0]
  indexVectorDim := 1
  wf := scatter_S64x192_S262144x1_S262144x192_1_0_0_1_wf
def scatter_S64x1_S262144x1_S262144x1_1_0_0_1 : ScatterDims S64x1 S262144x1 S262144x1 where
  updateWindowDims := [1]
  insertedWindowDims := [0]
  scatterDimsToOperandDims := [0]
  indexVectorDim := 1
  wf := scatter_S64x1_S262144x1_S262144x1_1_0_0_1_wf
def gather_S64x192_S262144x1_S262144x192_1_0_n_n_0_1_1192 : GatherDims S64x192 S262144x1 S262144x192 where
  offsetDims := [1]
  collapsedSliceDims := [0]
  operandBatchingDims := []
  startIndicesBatchingDims := []
  startIndexMap := [0]
  indexVectorDim := 1
  sliceSizes := ![1, 192]
  wf := gather_S64x192_S262144x1_S262144x192_1_0_n_n_0_1_1192_wf

class Facts : Prop extends Facts₀ where

variable [Facts]
-- ==== Proof.Spec.lean ====
/-
  The cluster loss as one function of the two argument arrays, over the extended reals.

  logits x : [262144, 192], labels : [262144] (32-bit words).  With oh w k = 1 when the word w names class k and 0
  otherwise:
    sums (k, d)  = the sum over the rows n of oh (label n) k * x (n, d)
    cnts k       = the sum over the rows n of oh (label n) k
    means (k, d) = sums (k, d) / cnts k
    gath M w d   = the sum over the classes k of oh w k * M (k, d)      (row w of the table M, as a one-hot product)
    rownorm n    = sqrt (the sum over d of (x (n, d) - gath M (label n) d + eps)^2)
    intra        = the sum over the rows n of rownorm n
  The same sums laid out as the two halves (a), the sixteen row blocks of a half (j) and the 8192 rows of a block (r):
  row (a, j, r) is row a * 131072 + j * 8192 + r, and its label sits at (a, j * 64 + r / 128, r % 128) of the
  lane-dense [2, 1024, 128] arrangement.
-/
import Idealize.ShloMosaic.PureOps.Ideal
import Idealize.ShloMosaic.PureOps.Ideal.Laws
import Idealize.ShloMosaic.Lib.ValueIdx

noncomputable section

open scoped BigOperators

namespace Cert.Cluster

open Idealize.ShloMosaic Idealize.ShloMosaic.ValueIdx

abbrev SX : Shape := ⟨2, ![262144, 192]⟩
abbrev SL : Shape := ⟨1, ![262144]⟩
abbrev SM : Shape := ⟨2, ![64, 192]⟩
abbrev SX3 : Shape := ⟨3, ![2, 131072, 192]⟩
abbrev SL3 : Shape := ⟨3, ![2, 1024, 128]⟩

/-- The one-hot entry: 1 at the class the label word names, 0 at every other class. -/
def oh (w : BitVec 32) (k : Fin 64) : EReal := if w = BitVec.ofNat 32 k.val then 1 else 0

/-- The offset both programs add to a difference before squaring it (the same 32-bit pattern on both sides). -/
def eps : EReal := Ideal.ofBits .f32 0x358637BD#32

/-- Per class and column, the sum of the rows of that class. -/
def sums (x : SX.Idx → EReal) (lab : SL.Idx → BitVec 32) : SM.Idx → EReal :=
  fun i => ∑ n : Fin 262144, oh (lab (ix1 n)) (i 0) * x (ix2 n (i 1))

/-- Per class, the number of rows of that class. -/
def cnts (lab : SL.Idx → BitVec 32) : Fin 64 → EReal :=
  fun k => ∑ n : Fin 262144, oh (lab (ix1 n)) k

/-- The class means: the quotient of the two, as the host divides. -/
def means (x : SX.Idx → EReal) (lab : SL.Idx → BitVec 32) : SM.Idx → EReal :=
  fun i => Ideal.div (sums x lab i) (cnts lab (i 0))

/-- Row `w` of the table `M` as the product of the one-hot row with the table. -/
def gath (M : SM.Idx → EReal) (w : BitVec 32) (d : Fin 192) : EReal := ∑ k : Fin 64, oh w k * M (ix2 k d)

/-- The squared, offset distance of one entry from its class's table row. -/
def sqd (xv g : EReal) : EReal := (xv - g + eps) * (xv - g + eps)

/-- The distance of row `n` from its class's row of `M`. -/
def rownorm (x : SX.Idx → EReal) (M : SM.Idx → EReal) (lab : SL.Idx → BitVec 32) (n : Fin 262144) : EReal :=
  Ideal.sqrt (∑ d : Fin 192, sqd (x (ix2 n d)) (gath M (lab (ix1 n)) d))

/-- The sum of all rows' distances. -/
def intra (x : SX.Idx → EReal) (M : SM.Idx → EReal) (lab : SL.Idx → BitVec 32) : EReal :=
  ∑ n : Fin 262144, rownorm x M lab n

/-! ## The same, by halves, row blocks and rows of a block -/

/-- Row `r` of row block `j` of half `a`, as a row of the whole array. -/
def rowOf (a : Fin 2) (j : Fin 16) (r : Fin 8192) : Fin 262144 :=
  ⟨a.val * 131072 + j.val * 8192 + r.val, by have := a.isLt; have := j.isLt; have := r.isLt; omega⟩
/-- Its row inside the half. -/
def xrow (j : Fin 16) (r : Fin 8192) : Fin 131072 := ⟨j.val * 8192 + r.val, by have := j.isLt; have := r.isLt; omega⟩
/-- Where its label sits in the lane-dense arrangement of a half: sublane row and lane. -/
def lrow (j : Fin 16) (r : Fin 8192) : Fin 1024 := ⟨j.val * 64 + r.val / 128, by have := j.isLt; have := r.isLt; omega⟩
def lcol (r : Fin 8192) : Fin 128 := ⟨r.val % 128, Nat.mod_lt _ (by decide)⟩

/-- One half's class sums, over the half's own arrays. -/
def blkSums (x3 : SX3.Idx → EReal) (l3 : SL3.Idx → BitVec 32) (a : Fin 2) (k : Fin 64) (d : Fin 192) : EReal :=
  ∑ j : Fin 16, ∑ r : Fin 8192, oh (l3 (ix3 a (lrow j r) (lcol r))) k * x3 (ix3 a (xrow j r) d)

/-- One half's class counts. -/
def blkCnts (l3 : SL3.Idx → BitVec 32) (a : Fin 2) (k : Fin 64) : EReal :=
  ∑ j : Fin 16, ∑ r : Fin 8192, oh (l3 (ix3 a (lrow j r) (lcol r))) k

/-- One half's sum of row distances from the table `M`. -/
def blkIntra (x3 : SX3.Idx → EReal) (l3 : SL3.Idx → BitVec 32) (M : SM.Idx → EReal) (a : Fin 2) : EReal :=
  ∑ j : Fin 16, ∑ r : Fin 8192,
    Ideal.sqrt (∑ d : Fin 192, sqd (x3 (ix3 a (xrow j r) d)) (gath M (l3 (ix3 a (lrow j r) (lcol r))) d))

/-! ## Regrouping -/

/-- Rows of the whole array are the triples (half, row block, row of the block): the division with remainder by
    131072 and then by 8192. -/
private def rowEquiv : Fin 2 × Fin 16 × Fin 8192 ≃ Fin 262144 where
  toFun p := rowOf p.1 p.2.1 p.2.2
  invFun n :=
    (⟨n.val / 131072, by have := n.isLt; omega⟩, ⟨n.val % 131072 / 8192, by omega⟩, ⟨n.val % 8192, by omega⟩)
  left_inv := by
    rintro ⟨a, j, r⟩
    have ha := a.isLt
    have hj := j.isLt
    have hr := r.isLt
    refine Prod.ext (Fin.ext ?_) (Prod.ext (Fin.ext ?_) (Fin.ext ?_)) <;> simp only [rowOf] <;> omega
  right_inv := by
    intro n
    have hn := n.isLt
    apply Fin.ext
    simp only [rowOf]
    omega

/-- A sum over all rows is the sum over halves, row blocks and rows of a block. -/
theorem sum_rowOf (f : Fin 262144 → EReal) :
    ∑ a : Fin 2, ∑ j : Fin 16, ∑ r : Fin 8192, f (rowOf a j r) = ∑ n : Fin 262144, f n := by
  rw [← Equiv.sum_comp rowEquiv f, Fintype.sum_prod_type]
  refine Finset.sum_congr rfl fun a _ => ?_
  rw [Fintype.sum_prod_type]
  rfl

/-- A word is the 32-bit word of a class number exactly when its signed reading is that number (class numbers are
    below 64, far below 2^31, so the signed and the unsigned readings agree there). -/
private theorem eq_ofNat_iff (w : BitVec 32) (k : Fin 64) :
    w = BitVec.ofNat 32 k.val ↔ w.toInt = (k.val : ℤ) := by
  have hk := k.isLt
  have hw := w.isLt
  have hc := BitVec.toInt_eq_toNat_cond w
  have hm : k.val % 2 ^ 32 = k.val := Nat.mod_eq_of_lt (by omega)
  rw [← BitVec.toNat_inj, BitVec.toNat_ofNat, hm]
  split_ifs at hc <;> omega

/-- A label word in the class range names exactly one class: the one-hot product with a table is that class's row. -/
theorem gath_of_range (M : SM.Idx → EReal) (w : BitVec 32) (h0 : 0 ≤ w.toInt) (h1 : w.toInt < 64) (d : Fin 192) :
    gath M w d = M (ix2 (⟨w.toInt.toNat, by omega⟩ : Fin 64) d) := by
  unfold gath
  rw [Finset.sum_eq_single (⟨w.toInt.toNat, by omega⟩ : Fin 64)]
  · have hw : w = BitVec.ofNat 32 (⟨w.toInt.toNat, by omega⟩ : Fin 64).val :=
      (eq_ofNat_iff w _).2 (by simp only; omega)
    rw [oh, if_pos hw, one_mul]
  · intro k _ hk
    have hw : ¬ w = BitVec.ofNat 32 k.val := by
      intro h
      apply hk
      have := (eq_ofNat_iff w k).1 h
      apply Fin.ext
      simp only
      omega
    rw [oh, if_neg hw, zero_mul]
  · intro h
    exact absurd (Finset.mem_univ _) h

/-- The rows a signed label word sends to class `k` are those whose one-hot entry at `k` is 1. -/
theorem sum_filter_label (lab : Fin 262144 → BitVec 32) (k : Fin 64) (f : Fin 262144 → EReal) :
    ∑ e ∈ Finset.univ.filter (fun e : Fin 262144 => (lab e).toInt = (k.val : ℤ)), f e
      = ∑ e : Fin 262144, oh (lab e) k * f e := by
  rw [Finset.sum_filter]
  refine Finset.sum_congr rfl fun e _ => ?_
  unfold oh
  by_cases h : (lab e).toInt = (k.val : ℤ)
  · rw [if_pos h, if_pos ((eq_ofNat_iff _ _).2 h), one_mul]
  · rw [if_neg h, if_neg (fun h' => h ((eq_ofNat_iff _ _).1 h')), zero_mul]

/-- The label of row (a, j, r), read from the lane-dense arrangement, is the label of that row of the whole array:
    (j * 64 + r / 128) * 128 + r % 128 = j * 8192 + r. -/
private theorem l3_rowOf (lab : SL.Idx → BitVec 32) (l3 : SL3.Idx → BitVec 32)
    (hl : ∀ a p b, l3 (ix3 a p b) = lab (ix1 (⟨a.val * 131072 + p.val * 128 + b.val, by have := a.isLt; have := p.isLt; have := b.isLt; omega⟩ : Fin 262144)))
    (a : Fin 2) (j : Fin 16) (r : Fin 8192) :
    l3 (ix3 a (lrow j r) (lcol r)) = lab (ix1 (rowOf a j r)) := by
  refine (hl a _ _).trans (congrArg (fun n => lab (ix1 n)) (Fin.ext ?_))
  have := Nat.div_add_mod r.val 128
  simp only [rowOf, lrow, lcol]
  omega

/-- The entry of row (a, j, r), read from the half's array, is the entry of that row of the whole array. -/
private theorem x3_rowOf (x : SX.Idx → EReal) (x3 : SX3.Idx → EReal)
    (hx : ∀ a q d, x3 (ix3 a q d) = x (ix2 (⟨a.val * 131072 + q.val, by have := a.isLt; have := q.isLt; omega⟩ : Fin 262144) d))
    (a : Fin 2) (j : Fin 16) (r : Fin 8192) (d : Fin 192) :
    x3 (ix3 a (xrow j r) d) = x (ix2 (rowOf a j r) d) := by
  refine (hx a _ d).trans (congrArg (fun n => x (ix2 n d)) (Fin.ext ?_))
  simp only [rowOf, xrow]
  omega

/-- With the halves' arrays the two reshapes of `x` and `lab`, the halves' sums add up to the class sums. -/
theorem blkSums_total (x : SX.Idx → EReal) (lab : SL.Idx → BitVec 32) (x3 : SX3.Idx → EReal) (l3 : SL3.Idx → BitVec 32)
    (hx : ∀ a q d, x3 (ix3 a q d) = x (ix2 (⟨a.val * 131072 + q.val, by have := a.isLt; have := q.isLt; omega⟩ : Fin 262144) d))
    (hl : ∀ a p b, l3 (ix3 a p b) = lab (ix1 (⟨a.val * 131072 + p.val * 128 + b.val, by have := a.isLt; have := p.isLt; have := b.isLt; omega⟩ : Fin 262144)))
    (k : Fin 64) (d : Fin 192) :
    ∑ a : Fin 2, blkSums x3 l3 a k d = sums x lab (ix2 k d) := by
  have hs : sums x lab (ix2 k d) = ∑ n : Fin 262144, oh (lab (ix1 n)) k * x (ix2 n d) := rfl
  rw [hs, ← sum_rowOf]
  refine Finset.sum_congr rfl fun a _ => ?_
  unfold blkSums
  refine Finset.sum_congr rfl fun j _ => Finset.sum_congr rfl fun r _ => ?_
  rw [l3_rowOf lab l3 hl, x3_rowOf x x3 hx]

theorem blkCnts_total (lab : SL.Idx → BitVec 32) (l3 : SL3.Idx → BitVec 32)
    (hl : ∀ a p b, l3 (ix3 a p b) = lab (ix1 (⟨a.val * 131072 + p.val * 128 + b.val, by have := a.isLt; have := p.isLt; have := b.isLt; omega⟩ : Fin 262144)))
    (k : Fin 64) :
    ∑ a : Fin 2, blkCnts l3 a k = cnts lab k := by
  unfold cnts
  rw [← sum_rowOf]
  refine Finset.sum_congr rfl fun a _ => ?_
  unfold blkCnts
  refine Finset.sum_congr rfl fun j _ => Finset.sum_congr rfl fun r _ => ?_
  rw [l3_rowOf lab l3 hl]

theorem blkIntra_total (x : SX.Idx → EReal) (lab : SL.Idx → BitVec 32) (M : SM.Idx → EReal)
    (x3 : SX3.Idx → EReal) (l3 : SL3.Idx → BitVec 32)
    (hx : ∀ a q d, x3 (ix3 a q d) = x (ix2 (⟨a.val * 131072 + q.val, by have := a.isLt; have := q.isLt; omega⟩ : Fin 262144) d))
    (hl : ∀ a p b, l3 (ix3 a p b) = lab (ix1 (⟨a.val * 131072 + p.val * 128 + b.val, by have := a.isLt; have := p.isLt; have := b.isLt; omega⟩ : Fin 262144))) :
    ∑ a : Fin 2, blkIntra x3 l3 M a = intra x M lab := by
  unfold intra
  rw [← sum_rowOf]
  refine Finset.sum_congr rfl fun a _ => ?_
  unfold blkIntra
  refine Finset.sum_congr rfl fun j _ => Finset.sum_congr rfl fun r _ => ?_
  unfold rownorm
  rw [l3_rowOf lab l3 hl]
  refine congrArg Ideal.sqrt (Finset.sum_congr rfl fun d _ => ?_)
  rw [x3_rowOf x x3 hx]

end Cert.Cluster

end
-- ==== Proof.Region1.lean ====
/-
  What the second kernel region (the distances of the rows from their class means) leaves in its result array, over
  the extended reals: half a's one entry is the sum, over the half's sixteen row blocks and their 8192 rows, of the
  row's distance from its class's row of the table the region is given.

  The grid is (2, 16); point 16 a + j is given row block j of half a of the logits (8192 rows of 192 columns) and of the
  lane-dense labels (64 sublane rows of 128 lanes: row r's label on sublane row r / 128, lane r % 128), the whole table,
  and half a's entry of the result. At j = 0 the entry is set to 0; at every point the body adds to it the block's sum of
  row distances, the distance of row r being the square root of the sum over the columns d of
  (x (r, d) - g (r, d) + eps)^2, where g (r, d) = the sum over the 64 classes k of [label r = k] * table (k, d) is the
  product of the one-hot rows with the table. The entry is written back after j = 15. So the entry of half a ends as the
  sum over j of the sixteen blocks' sums, which is the half's sum as the specification lays it out.
-/
import proofs.«410830_j15427522527361_3_alg».proof.Proof.Gen.KernelIdeal.Frame
import proofs.«410830_j15427522527361_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Val

open Cert.KernelIdeal Cert.KernelIdeal.Gen

namespace Intra

/-! ## What the body leaves in the result's staging buffer, in its two cases -/

section Pieces
variable {F : FTy → Type} [FloatOps F]

private theorem hz3 : (![0, 0, 0] : Fin 3 → Nat) = fun _ => 0 := funext fun a => by fin_cases a <;> rfl
private theorem hz2 : (![0, 0] : Fin 2 → Nat) = fun _ => 0 := funext fun a => by fin_cases a <;> rfl

/-- Away from the first block of a half the body leaves, in the result's staging buffer holding `xo`, the update of
    `xo` by this block's labels, table and logits: its one store's payload, whose loads read the whole buffers. -/
theorem out_B (c : Dev nD) (i : grid1.Coords) (a2 : Memref sig .tc .vmem S1x8192x192 .f32) (h2 : a2.IsWhole)
    (a3 : Memref sig .tc .vmem S1x64x128 .i32) (h3 : a3.IsWhole) (a4 : Memref sig .tc .vmem S64x192 .f32) (h4 : a4.IsWhole)
    (a5 : Memref sig .tc .vmem S1x1x1 .f32) (h5 : a5.IsWhole) (hc : ¬cond1_0 i)
    (x0 : Vec F S1x8192x192 .f32) (x1 : Vec F S1x64x128 .i32) (x2 : Vec F S64x192 .f32) (xo : Vec F S1x1x1 .f32) :
    out1_B_3 c i a2 h2 a3 h3 a4 h4 a5 h5 hc x0 x1 x2 xo = k1_pay2 x1 x2 x0 xo := by
  unfold out1_B_3
  rw [View.read_writes_eq_canon _ _ _ (cover1_B_3 c i a2 h2 a3 h3 a4 h4 a5 h5 hc x0 x1 x2 xo)]
  unfold kernelRun1_B
  dsimp only
  sl_unfold_words
  rw [View.canon_unit_zero (S := S1x1x1) hz3]
  simp only [View.readAt_eq_ld, h2.read_unread, h3.read_unread, h4.read_unread, h5.read_unread,
    View.ld_unit_zero (S := S1x8192x192) hz3, View.ld_unit_zero (S := S1x64x128) hz3,
    View.ld_unit_zero (S := S64x192) hz2, View.ld_unit_zero (S := S1x1x1) hz3]

/-- At the first block of a half the body stores the zero entry, reads it back, and leaves the update of that. -/
theorem out_A (c : Dev nD) (i : grid1.Coords) (a2 : Memref sig .tc .vmem S1x8192x192 .f32) (h2 : a2.IsWhole)
    (a3 : Memref sig .tc .vmem S1x64x128 .i32) (h3 : a3.IsWhole) (a4 : Memref sig .tc .vmem S64x192 .f32) (h4 : a4.IsWhole)
    (a5 : Memref sig .tc .vmem S1x1x1 .f32) (h5 : a5.IsWhole) (hc : cond1_0 i)
    (x0 : Vec F S1x8192x192 .f32) (x1 : Vec F S1x64x128 .i32) (x2 : Vec F S64x192 .f32) :
    out1_A_3 c i a2 h2 a3 h3 a4 h4 a5 h5 hc x0 x1 x2 = k1_pay2 x1 x2 x0 (k1_pay1 (F := F)) := by
  unfold out1_A_3
  rw [View.read_writes_eq_canon _ _ _ (cover1_A_3 c i a2 h2 a3 h3 a4 h4 a5 h5 hc x0 x1 x2)]
  unfold kernelRun1_A
  dsimp only
  sl_unfold_words
  rw [View.canon_cons_unit_zero (S := S1x1x1) hz3, View.readCov_unit_zero (S := S1x1x1) _ hz3]
  simp only [View.readAt_eq_ld, h2.read_unread, h3.read_unread, h4.read_unread,
    View.ld_unit_zero (S := S1x8192x192) hz3, View.ld_unit_zero (S := S1x64x128) hz3,
    View.ld_unit_zero (S := S64x192) hz2]

end Pieces

/-! ## The update read at its one index, over the extended reals -/

section Payload

open Cert.Cluster (oh gath sqd eps lcol)

/-- Row `r` of a block of 8192 rows has its label on sublane row `r / 128` of the block's lane-dense labels. -/
def prow (r : Fin 8192) : Fin 64 := ⟨r.val / 128, by have := r.isLt; omega⟩

/-- The converted comparison bit is the one-hot entry: 1 where the label word names the class, else 0. -/
theorem onehot_word (a b w : BitVec 32) (k : Fin 64) (ha : a = w) (hb : b = BitVec.ofNat 32 k.val) :
    FloatOps.sitofp (F := Ideal) .f32 ((IntOp.cmpi .eq a b).setWidth 32) = oh w k := by
  subst ha hb
  show (((((IntOp.cmpi .eq a (BitVec.ofNat 32 k.val)).setWidth 32).toInt : ℤ) : ℝ) : EReal) = _
  unfold Cert.Cluster.oh
  by_cases h : a = BitVec.ofNat 32 k.val
  · have e : IntOp.cmpi .eq a (BitVec.ofNat 32 k.val) = 1#1 := by simp [IntOp.cmpi, h]
    rw [e, if_pos h, show ((1#1 : BitVec 1).setWidth 32).toInt = 1 from by decide]
    simp
  · have e : IntOp.cmpi .eq a (BitVec.ofNat 32 k.val) = 0#1 := by
      unfold IntOp.cmpi
      rw [show (a == BitVec.ofNat 32 k.val) = false from beq_eq_false_iff_ne.mpr h]
      rfl
    rw [e, if_neg h, show ((0#1 : BitVec 1).setWidth 32).toInt = 0 from by decide]
    simp

/-- The labels' 64 sublane rows of 128 lanes laid out as one column of 8192: row `r` is lane `r % 128` of row `r / 128`. -/
theorem cast_labels {α : Type} (x : S64x128.Idx → α) (h : S64x128.ShapeCasts S8192x1) (r : Fin 8192) (u : Fin 1) :
    shapeCast S8192x1 x h (ix2 r u) = x (ix2 (prow r) (lcol r)) :=
  shapeCast_apply x h _ _ (by
    rw [Shape.rowMajor_val_two, Shape.rowMajor_val_two]
    show r.val / 128 * 128 + r.val % 128 = r.val * 1 + u.val
    have := u.isLt; omega)

/-- A vector of 8192 entries as a column. -/
theorem cast_col {α : Type} (x : S8192.Idx → α) (h : S8192.ShapeCasts S8192x1) (r : Fin 8192) (u : Fin 1) :
    shapeCast S8192x1 x h (ix2 r u) = x (ix1 r) :=
  shapeCast_apply x h _ _ (by
    rw [Shape.rowMajor_val_one, Shape.rowMajor_val_two]
    show r.val = r.val * 1 + u.val
    have := u.isLt; omega)

/-- The labels column repeated along the 64 classes. -/
theorem bcast_col {α : Type} (x : S8192x1.Idx → α) (h : S8192x1.Broadcasts S8192x64) (r : Fin 8192) (k : Fin 64) :
    broadcastTo S8192x64 x h (ix2 r k) = x (ix2 r (0 : Fin 1)) :=
  broadcastTo_apply x h (ix2 r k) (ix2 r (0 : Fin 1)) fun a => match a with
    | ⟨0, _⟩ => rfl
    | ⟨1, _⟩ => rfl

/-- The sum along the 192 columns, at row `r`. -/
theorem colsum_apply (v : FVec Ideal S8192x192 .f32) (h : S8192x192.Reduces [1] S8192) (hφ : FKind.Formats .f32)
    (hacc : (0x00000000#32 : BitVec 32) = FKind.add.neutral .f32 hφ) (r : Fin 8192) :
    multiReduction .add [1] S8192 v 0x00000000#32 h hφ hacc (ix1 r) = ∑ d : Fin 192, v (ix2 r d) :=
  (Ideal.multiReduction_add_single v _ h hφ hacc (ix1 r)).trans
    (Finset.sum_congr rfl fun d _ => congrArg v (funext fun a => Fin.ext (match a with
      | ⟨0, _⟩ => rfl
      | ⟨1, _⟩ => rfl)))

/-- The sum along the 8192 rows of a column. -/
theorem rowsum_apply (v : FVec Ideal S8192x1 .f32) (h : S8192x1.Reduces [0] S1) (hφ : FKind.Formats .f32)
    (hacc : (0x00000000#32 : BitVec 32) = FKind.add.neutral .f32 hφ) (u : Fin 1) :
    multiReduction .add [0] S1 v 0x00000000#32 h hφ hacc (ix1 u) = ∑ r : Fin 8192, v (ix2 r (0 : Fin 1)) :=
  (Ideal.multiReduction_add_single v _ h hφ hacc (ix1 u)).trans
    (Finset.sum_congr rfl fun r _ => congrArg v (funext fun a => Fin.ext (match a with
      | ⟨0, _⟩ => rfl
      | ⟨1, _⟩ => (by have := u.isLt; show u.val = 0; omega))))

/-! The product of the one-hot rows with the table: its two operands' indices, axis by axis. -/

theorem lhs_gath_0 (i : S8192x192.Idx) (q : dot_S8192x64_S64x192_S8192x192_1_0_0_1_n_n.contr.Idx) :
    (dot_S8192x64_S64x192_S8192x192_1_0_0_1_n_n.lhsIdx i q 0).val = (i 0).val := by
  unfold DotDims.lhsIdx
  rw [dif_neg (show ¬(0 : Fin S8192x64.rank) ∈ dot_S8192x64_S64x192_S8192x192_1_0_0_1_n_n.lhsBatch by decide),
    dif_pos (show (0 : Fin S8192x64.rank) ∈ dot_S8192x64_S64x192_S8192x192_1_0_0_1_n_n.lhsNonContracting by decide)]
  rfl
theorem lhs_gath_1 (i : S8192x192.Idx) (q : dot_S8192x64_S64x192_S8192x192_1_0_0_1_n_n.contr.Idx) :
    (dot_S8192x64_S64x192_S8192x192_1_0_0_1_n_n.lhsIdx i q 1).val = (q ⟨0, by decide⟩).val :=
  dot_S8192x64_S64x192_S8192x192_1_0_0_1_n_n.lhsIdx_val_of_single rfl i q
theorem rhs_gath_0 (i : S8192x192.Idx) (q : dot_S8192x64_S64x192_S8192x192_1_0_0_1_n_n.contr.Idx) :
    (dot_S8192x64_S64x192_S8192x192_1_0_0_1_n_n.rhsIdx i q 0).val = (q ⟨0, by decide⟩).val :=
  dot_S8192x64_S64x192_S8192x192_1_0_0_1_n_n.rhsIdx_val_of_single rfl i q
theorem rhs_gath_1 (i : S8192x192.Idx) (q : dot_S8192x64_S64x192_S8192x192_1_0_0_1_n_n.contr.Idx) :
    (dot_S8192x64_S64x192_S8192x192_1_0_0_1_n_n.rhsIdx i q 1).val = (i 1).val := by
  unfold DotDims.rhsIdx
  rw [dif_neg (show ¬(1 : Fin S64x192.rank) ∈ dot_S8192x64_S64x192_S8192x192_1_0_0_1_n_n.rhsBatch by decide),
    dif_pos (show (1 : Fin S64x192.rank) ∈ dot_S8192x64_S64x192_S8192x192_1_0_0_1_n_n.rhsNonContracting by decide)]
  rfl

/-- The product into the zero accumulator, at row `r` and column `d`: the sum over the 64 classes of the row's entry
    times the table's, whatever the two factors are known to be there. -/
theorem gathered_apply (A : FVec Ideal S8192x64 .bf16) (B : FVec Ideal S64x192 .bf16) (r : Fin 8192) (d : Fin 192)
    (L R : Fin 64 → EReal) (hl : ∀ k, A (ix2 r k) = L k) (hr : ∀ k, B (ix2 k d) = R k) :
    matmul dot_S8192x64_S64x192_S8192x192_1_0_0_1_n_n none A B (constant S8192x192 .f32 0x00000000#32) (ix2 r d)
      = ∑ k : Fin 64, L k * R k := by
  refine (Ideal.matmul_constant_zero_apply dot_S8192x64_S64x192_S8192x192_1_0_0_1_n_n none A B (ix2 r d)).trans ?_
  rw [← Equiv.sum_comp (contrEquiv1 dot_S8192x64_S64x192_S8192x192_1_0_0_1_n_n 64 rfl rfl).symm]
  refine Finset.sum_congr rfl fun k _ => ?_
  have hk := contrEquiv1_symm_val dot_S8192x64_S64x192_S8192x192_1_0_0_1_n_n 64 rfl rfl k
  have el : dot_S8192x64_S64x192_S8192x192_1_0_0_1_n_n.lhsIdx (ix2 r d)
      ((contrEquiv1 dot_S8192x64_S64x192_S8192x192_1_0_0_1_n_n 64 rfl rfl).symm k) = ix2 r k :=
    funext fun a => Fin.ext (by
      match a with
      | ⟨0, _⟩ => exact lhs_gath_0 _ _
      | ⟨1, _⟩ => exact (lhs_gath_1 _ _).trans hk)
  have er : dot_S8192x64_S64x192_S8192x192_1_0_0_1_n_n.rhsIdx (ix2 r d)
      ((contrEquiv1 dot_S8192x64_S64x192_S8192x192_1_0_0_1_n_n 64 rfl rfl).symm k) = ix2 k d :=
    funext fun a => Fin.ext (by
      match a with
      | ⟨0, _⟩ => exact (rhs_gath_0 _ _).trans hk
      | ⟨1, _⟩ => exact rhs_gath_1 _ _)
  rw [el, er, hl k, hr k]

end Payload

section PayloadAt

open Cert.Cluster (oh gath sqd eps lcol)

/-- The one index of a one-entry block. -/
theorem idx111 (j : S1x1x1.Idx) : j = ix3 (0 : Fin 1) (0 : Fin 1) (0 : Fin 1) :=
  funext fun a => Fin.ext (match a with
    | ⟨0, _⟩ => (by have h : (j 0).val < 1 := (j 0).isLt; show (j 0).val = 0; omega)
    | ⟨1, _⟩ => (by have h : (j 1).val < 1 := (j 1).isLt; show (j 1).val = 0; omega)
    | ⟨2, _⟩ => (by have h : (j 2).val < 1 := (j 2).isLt; show (j 2).val = 0; omega))

/-- The reset stores the extended real 0. -/
theorem pay1_apply (j : S1x1x1.Idx) : k1_pay1 (F := Ideal) j = 0 := by
  unfold k1_pay1
  show Ideal.ofBits .f32 0x00000000#32 = 0
  exact Ideal.ofBits_zero_f32

/-- THE UPDATE AT ITS ENTRY: the previous contents plus, over the block's 8192 rows, the row's distance from the table's
    row its label names: the square root of the sum over the 192 columns of the squared, offset difference between the
    logits entry and the one-hot product of the label with the table. -/
theorem pay2_apply (lb : Vec Ideal S1x64x128 .i32) (M : Vec Ideal S64x192 .f32) (xb : Vec Ideal S1x8192x192 .f32)
    (prev : Vec Ideal S1x1x1 .f32) (j : S1x1x1.Idx) :
    k1_pay2 (F := Ideal) lb M xb prev j
      = prev j + ∑ r : Fin 8192, Ideal.sqrt (∑ d : Fin 192,
          sqd (xb (ix3 (0 : Fin 1) r d)) (gath M (lb (ix3 (0 : Fin 1) (prow r) (lcol r))) d)) := by
  rw [idx111 j]
  unfold k1_pay2
  refine (shapeCast_ab_1ab_apply _ _ (0 : Fin 1) (0 : Fin 1) (0 : Fin 1)).trans ?_
  refine (addf_apply _ _ _).trans ?_
  refine congrArg₂ (· + ·) (shapeCast_1ab_ab_apply prev _ (0 : Fin 1) (0 : Fin 1)) ?_
  refine (shapeCast_a_1a_apply _ _ (0 : Fin 1) (0 : Fin 1)).trans ?_
  refine (rowsum_apply _ _ _ _ (0 : Fin 1)).trans ?_
  refine Finset.sum_congr rfl fun r _ => ?_
  refine congrArg Ideal.sqrt ?_
  refine (cast_col _ _ r (0 : Fin 1)).trans ?_
  refine (colsum_apply _ _ _ _ r).trans ?_
  refine Finset.sum_congr rfl fun d _ => ?_
  have sq : ∀ (W : FVec Ideal S8192x192 .f32) (g : EReal), W (ix2 r d) = g → mulf W W (ix2 r d) = g * g :=
    fun W g h => by rw [mulf_apply, h]
  refine sq _ _ ?_
  refine (addf_apply _ _ _).trans ?_
  refine congrArg₂ (· + ·) ?_ rfl
  refine (subf_apply _ _ _).trans ?_
  refine congrArg₂ (· - ·) (shapeCast_1ab_ab_apply xb _ r d) ?_
  refine gathered_apply _ _ r d (fun k => oh (lb (ix3 (0 : Fin 1) (prow r) (lcol r))) k) (fun k => M (ix2 k d))
    (fun k => ?_) (fun k => ?_)
  · refine (truncf_apply (φ := .f32) (ψ := .bf16) _ bitsLt_bf16_f32 (ix2 r k)).trans ?_
    refine (sitofp_apply (F := Ideal) (φ := .f32) _ (ix2 r k)).trans ?_
    refine onehot_word _ _ _ k ?_ ?_
    · refine (bcast_col _ _ r k).trans ?_
      refine (cast_labels _ _ r (0 : Fin 1)).trans ?_
      exact shapeCast_1ab_ab_apply lb _ (prow r) (lcol r)
    · refine (broadcastTo_1b_ab_apply _ _ r k).trans ?_
      exact iota_single_apply .tc S1x64 32 1 _ (ix2 (0 : Fin 1) k)
  · refine (truncf_apply (φ := .f32) (ψ := .bf16) _ bitsLt_bf16_f32 (ix2 k d)).trans ?_
    exact congrFun (shapeCast_self M _) (ix2 k d)

end PayloadAt

/-! ## The blocks a point is given, and the fold over the points -/

variable (V : (c : Dev nD) → (b : Ref sig .tc) → Buf (Elt Ideal) ((c : Thread nD τ).loc b))

section Blocks

open Cert.Cluster (oh gath sqd eps lcol lrow xrow blkIntra)

/-- The three blocks a point is given, each at its literal type. -/
abbrev xblk (c : Dev nD) (t : Fin cfg1.N) : Vec Ideal S1x8192x192 .f32 := iblk1 V c 0 t
abbrev lblk (c : Dev nD) (t : Fin cfg1.N) : Vec Ideal S1x64x128 .i32 := iblk1 V c 1 t
abbrev mblk (c : Dev nD) (t : Fin cfg1.N) : Vec Ideal S64x192 .f32 := iblk1 V c 2 t

/-- The three arrays the region reads, each at its literal type. -/
abbrev xarr (c : Dev nD) : Cert.Cluster.SX3.Idx → EReal := V c main_v0
abbrev larr (c : Dev nD) : Cert.Cluster.SL3.Idx → BitVec 32 := V c main_v1
abbrev marr (c : Dev nD) : Cert.Cluster.SM.Idx → EReal := V c main_v8

/-- Where each window's block sits at point `t`: point `16 a + j` is given row block `j` of half `a` of the logits and of
    the labels, the whole table, and half `a`'s entry of the result. -/
theorem idx_facts : ∀ t : Fin cfg1.N,
    win1_0.index t (0 : Fin 3) = t.val / 16 ∧ win1_0.index t (1 : Fin 3) = t.val % 16 ∧ win1_0.index t (2 : Fin 3) = 0
    ∧ win1_1.index t (0 : Fin 3) = t.val / 16 ∧ win1_1.index t (1 : Fin 3) = t.val % 16 ∧ win1_1.index t (2 : Fin 3) = 0
    ∧ win1_2.index t (0 : Fin 2) = 0 ∧ win1_2.index t (1 : Fin 2) = 0
    ∧ win1_3.index t (0 : Fin 3) = t.val / 16 ∧ win1_3.index t (1 : Fin 3) = 0 ∧ win1_3.index t (2 : Fin 3) = 0 :=
  (by decide +kernel : ∀ t : Fin grid1.N, _)

/-- Row `r`, column `d` of the logits block at point `16 a + j` is row `j * 8192 + r` of half `a`. -/
theorem xblk_apply (c : Dev nD) (t : Fin cfg1.N) (a : Fin 2) (j : Fin 16) (ht : t.val = 16 * a.val + j.val)
    (r : Fin 8192) (d : Fin 192) :
    xblk V c t (ix3 (0 : Fin 1) r d) = xarr V c (ix3 a (xrow j r) d) := by
  obtain ⟨e0, e1, e2, -⟩ := idx_facts t
  show V c main_v0 (((cfg1.win 0).blk t).view.emb (ix3 (0 : Fin 1) r d)) = V c main_v0 (ix3 a (xrow j r) d)
  refine congrArg (V c main_v0) (funext fun b => Fin.ext ?_)
  have ha := a.isLt; have hj := j.isLt
  match b with
  | ⟨0, _⟩ => show win1_0.index t (0 : Fin 3) * 1 + 1 * 0 = a.val; rw [e0]; omega
  | ⟨1, _⟩ => show win1_0.index t (1 : Fin 3) * 8192 + 1 * r.val = j.val * 8192 + r.val; rw [e1]; omega
  | ⟨2, _⟩ => show win1_0.index t (2 : Fin 3) * 192 + 1 * d.val = d.val; rw [e2]; omega

/-- Row `r`'s label in the labels block at point `16 a + j` is at sublane row `j * 64 + r / 128`, lane `r % 128` of half `a`. -/
theorem lblk_apply (c : Dev nD) (t : Fin cfg1.N) (a : Fin 2) (j : Fin 16) (ht : t.val = 16 * a.val + j.val)
    (r : Fin 8192) :
    lblk V c t (ix3 (0 : Fin 1) (prow r) (lcol r)) = larr V c (ix3 a (lrow j r) (lcol r)) := by
  obtain ⟨-, -, -, e0, e1, e2, -⟩ := idx_facts t
  show V c main_v1 (((cfg1.win 1).blk t).view.emb (ix3 (0 : Fin 1) (prow r) (lcol r))) = V c main_v1 (ix3 a (lrow j r) (lcol r))
  refine congrArg (V c main_v1) (funext fun b => Fin.ext ?_)
  have ha := a.isLt; have hj := j.isLt
  match b with
  | ⟨0, _⟩ => show win1_1.index t (0 : Fin 3) * 1 + 1 * 0 = a.val; rw [e0]; omega
  | ⟨1, _⟩ => show win1_1.index t (1 : Fin 3) * 64 + 1 * (r.val / 128) = j.val * 64 + r.val / 128; rw [e1]; omega
  | ⟨2, _⟩ => show win1_1.index t (2 : Fin 3) * 128 + 1 * (r.val % 128) = r.val % 128; rw [e2]; omega

/-- The table's block is the whole table at every point. -/
theorem mblk_eq (c : Dev nD) (t : Fin cfg1.N) : mblk V c t = marr V c := by
  obtain ⟨-, -, -, -, -, -, e0, e1, -⟩ := idx_facts t
  funext y
  show V c main_v8 (((cfg1.win 2).blk t).view.emb y) = V c main_v8 y
  refine congrArg (V c main_v8) (funext fun b => Fin.ext ?_)
  match b with
  | ⟨0, _⟩ => show win1_2.index t (0 : Fin 2) * 64 + 1 * (y 0).val = (y 0).val; rw [e0]; omega
  | ⟨1, _⟩ => show win1_2.index t (1 : Fin 2) * 192 + 1 * (y 1).val = (y 1).val; rw [e1]; omega

/-- One row block's sum of row distances. -/
def blkTerm (x3 : Cert.Cluster.SX3.Idx → EReal) (l3 : Cert.Cluster.SL3.Idx → BitVec 32) (M : Cert.Cluster.SM.Idx → EReal)
    (a : Fin 2) (j : Fin 16) : EReal :=
  ∑ r : Fin 8192, Ideal.sqrt (∑ d : Fin 192, sqd (x3 (ix3 a (xrow j r) d)) (gath M (l3 (ix3 a (lrow j r) (lcol r))) d))

/-- What point `n` adds, as a function of every natural (nothing past the grid). -/
def addend (c : Dev nD) (n : ℕ) : EReal :=
  if h : n < 32 then blkTerm (xarr V c) (larr V c) (marr V c) ⟨n / 16, by omega⟩ ⟨n % 16, Nat.mod_lt _ (by decide)⟩ else 0

/-- The update at point `n` adds that to the entry. -/
theorem step_addend (c : Dev nD) (n : ℕ) (h : n < cfg1.N) (prev : Vec Ideal S1x1x1 .f32) (i : S1x1x1.Idx) :
    k1_pay2 (F := Ideal) (lblk V c ⟨n, h⟩) (mblk V c ⟨n, h⟩) (xblk V c ⟨n, h⟩) prev i = prev i + addend V c n := by
  have hN : n < 32 := lt_of_lt_of_eq h (show cfg1.N = 32 from N_1)
  refine (pay2_apply (lblk V c ⟨n, h⟩) (mblk V c ⟨n, h⟩) (xblk V c ⟨n, h⟩) prev i).trans ?_
  refine congrArg (prev i + ·) ?_
  unfold addend blkTerm
  rw [dif_pos hN]
  refine Finset.sum_congr rfl fun r _ => congrArg Ideal.sqrt (Finset.sum_congr rfl fun d _ => ?_)
  have ht : (⟨n, h⟩ : Fin cfg1.N).val = 16 * (⟨n / 16, by omega⟩ : Fin 2).val + (⟨n % 16, Nat.mod_lt _ (by decide)⟩ : Fin 16).val := by
    show n = 16 * (n / 16) + n % 16; omega
  rw [xblk_apply V c ⟨n, h⟩ _ _ ht r d, lblk_apply V c ⟨n, h⟩ _ _ ht r, mblk_eq V c ⟨n, h⟩]

/-- WHAT THE RESULT'S BUFFER HOLDS AFTER POINT `t`: the sum of what the points of its half's run up to `t` add. -/
theorem outs_apply (c : Dev nD) (t : ℕ) (ht : t < cfg1.N) (i : S1x1x1.Idx) :
    outsAt1 V c t ht i = ∑ s ∈ Finset.range (t % 16 + 1), addend V c (16 * (t / 16) + s) := by
  have hN : t < 32 := lt_of_lt_of_eq ht (show cfg1.N = 32 from N_1)
  have h' : 16 * (t / 16) + t % 16 < cfg1.N := by rw [show cfg1.N = 32 from N_1]; omega
  rw [Pipeline.eq_accAt_of_mod (fun n h => outsAt1 V c n h) 16
    (fun n h => k1_pay2 (F := Ideal) (lblk V c ⟨n, h⟩) (mblk V c ⟨n, h⟩) (xblk V c ⟨n, h⟩) (k1_pay1 (F := Ideal)))
    (fun n h acc => k1_pay2 (F := Ideal) (lblk V c ⟨n, h⟩) (mblk V c ⟨n, h⟩) (xblk V c ⟨n, h⟩) acc)
    (fun n h h0 => (outsAt1_A V c ⟨n, h⟩ h0).trans
      (out_A (F := Ideal) c (grid1.coords ⟨n, h⟩) (ms1_0 ⟨n, h⟩) (hs1_0 ⟨n, h⟩) (ms1_1 ⟨n, h⟩) (hs1_1 ⟨n, h⟩) (ms1_2 ⟨n, h⟩) (hs1_2 ⟨n, h⟩)
        (ms1_3 ⟨n, h⟩) (hs1_3 ⟨n, h⟩) ((hcond1_0 ⟨n, h⟩).mpr h0) (xblk V c ⟨n, h⟩) (lblk V c ⟨n, h⟩) (mblk V c ⟨n, h⟩)))
    (fun n h hB => (outsAt1_B V c ⟨n + 1, h⟩ hB).trans
      (out_B (F := Ideal) c (grid1.coords ⟨n + 1, h⟩) (ms1_0 ⟨n + 1, h⟩) (hs1_0 ⟨n + 1, h⟩) (ms1_1 ⟨n + 1, h⟩) (hs1_1 ⟨n + 1, h⟩)
        (ms1_2 ⟨n + 1, h⟩) (hs1_2 ⟨n + 1, h⟩) (ms1_3 ⟨n + 1, h⟩) (hs1_3 ⟨n + 1, h⟩)
        (fun hc => hB ((hcond1_0 ⟨n + 1, h⟩).mp hc)) (xblk V c ⟨n + 1, h⟩) (lblk V c ⟨n + 1, h⟩) (mblk V c ⟨n + 1, h⟩)
        (outsAt1 V c n (Nat.lt_of_succ_lt h))))
    (by decide) t ht h']
  rw [Pipeline.accAt_add_apply _ _ (fun _ => (0 : EReal)) (fun n _ => addend V c n) (16 * (t / 16)) 15
    (fun h i => by rw [step_addend V c _ h _ i, pay1_apply])
    (fun n h acc i _ _ => step_addend V c n h acc i) (t % 16) (by omega) h' i]
  exact zero_add _

/-- At the last point of a half's run that is the half's whole sum. -/
theorem outs_last (c : Dev nD) (t : Fin cfg1.N) (h15 : t.val % 16 = 15) (i : S1x1x1.Idx) :
    outsAt1 V c t.val t.isLt i
      = blkIntra (xarr V c) (larr V c) (marr V c) ⟨t.val / 16, by have := lt_of_lt_of_eq t.isLt (show cfg1.N = 32 from N_1); omega⟩ := by
  have hN : t.val < 32 := lt_of_lt_of_eq t.isLt (show cfg1.N = 32 from N_1)
  rw [outs_apply V c t.val t.isLt i, h15, Finset.sum_range]
  unfold blkIntra
  refine Finset.sum_congr rfl fun j _ => ?_
  have hj := j.isLt
  unfold addend
  rw [dif_pos (by omega)]
  unfold blkTerm
  have e1 : (⟨(16 * (t.val / 16) + j.val) / 16, by omega⟩ : Fin 2) = ⟨t.val / 16, by omega⟩ := Fin.ext (by show (16 * (t.val / 16) + j.val) / 16 = t.val / 16; omega)
  have e2 : (⟨(16 * (t.val / 16) + j.val) % 16, Nat.mod_lt _ (by decide)⟩ : Fin 16) = j := Fin.ext (by show (16 * (t.val / 16) + j.val) % 16 = j.val; omega)
  rw [e1, e2]

end Blocks

/-! ## The result array -/

section Final

open Cert.Cluster (blkIntra)

/-- The result array's contents after the region. -/
abbrev result (c : Dev nD) : S2x1x1.Idx → EReal := fun i => blkIntra (xarr V c) (larr V c) (marr V c) (i 0)

/-- Each write-back — at the last point of a half's run — writes the half's entry of that. -/
theorem flushed_eq (c : Dev nD) (t : Fin cfg1.N) (hf : (cfg1.win 3).flush t = true) :
    (dat1 V c).flushed 3 t = ((cfg1.win 3).blk t).view.read (Elt Ideal) (result V c) := by
  have hN : t.val < 32 := lt_of_lt_of_eq t.isLt (show cfg1.N = 32 from N_1)
  have h15 : t.val % 16 = 15 := (flush1_3 t).mp hf
  obtain ⟨-, -, -, -, -, -, -, -, e0, -, -⟩ := idx_facts t
  show (cfg1.win 3).cut (grid1.coords t) ((dat1 V c).after 3 t) = _
  rw [after1_3]
  funext y
  rw [View.read_apply]
  show outsAt1 V c t.val t.isLt _ = blkIntra (xarr V c) (larr V c) (marr V c) ((((cfg1.win 3).blk t).view.emb y) 0)
  rw [outs_last V c t h15]
  refine congrArg (blkIntra (xarr V c) (larr V c) (marr V c)) (Fin.ext ?_)
  have hy : (y 0).val < 1 := (y 0).isLt
  show t.val / 16 = win1_3.index t (0 : Fin 3) * 1 + 1 * (y 0).val
  rw [e0]; omega

/-- Entry `a` of the result is in the block written back at point `16 a + 15`. -/
theorem covered (c : Dev nD) (i : S2x1x1.Idx) :
    ∃ t : Fin cfg1.N, (cfg1.win 3).flush t = true ∧ i ∈ ((cfg1.win 3).blk t).view.set := by
  have h0 : (i 0).val < 2 := (i 0).isLt
  have h1 : (i 1).val < 1 := (i 1).isLt
  have h2 : (i 2).val < 1 := (i 2).isLt
  let t : Fin cfg1.N := ⟨16 * (i 0).val + 15, by show _ < grid1.N; rw [N_1]; omega⟩
  obtain ⟨-, -, -, -, -, -, -, -, e0, e1, e2⟩ := idx_facts t
  refine ⟨t, (flush1_3 t).mpr (by show (16 * (i 0).val + 15) % 16 = 15; omega), ?_⟩
  show i ∈ ((View.whole main_v9).slice (win1_3.rect t)).set
  rw [View.set_slice_whole, Rect.mem_set_unit]
  intro a
  have ht : t.val = 16 * (i 0).val + 15 := rfl
  match a with
  | ⟨0, _⟩ =>
    show win1_3.index t (0 : Fin 3) * 1 ≤ (i 0).val ∧ (i 0).val < win1_3.index t (0 : Fin 3) * 1 + 1
    rw [e0]; omega
  | ⟨1, _⟩ =>
    show win1_3.index t (1 : Fin 3) * 1 ≤ (i 1).val ∧ (i 1).val < win1_3.index t (1 : Fin 3) * 1 + 1
    rw [e1]; omega
  | ⟨2, _⟩ =>
    show win1_3.index t (2 : Fin 3) * 1 ≤ (i 2).val ∧ (i 2).val < win1_3.index t (2 : Fin 3) * 1 + 1
    rw [e2]; omega

end Final

end Intra

variable (V : (c : Dev nD) → (b : Ref sig .tc) → Buf (Elt Ideal) ((c : Thread nD τ).loc b))

/-- The result array after the region: at (a, 0, 0) half a's sum of row distances from the table. -/
theorem arr1_3 (c : Dev nD) :
    ((dat1 (F := Ideal) V c).arrAt 3 cfg1.N : S2x1x1.Idx → EReal)
      = fun i => Cert.Cluster.blkIntra (V c main_v0) (V c main_v1) (V c main_v8) (i 0) :=
  (dat1 V c).arrAt_eq_of_cover 3 (Intra.result V c) (Intra.flushed_eq V c) (Intra.covered c)

end Cert.KernelIdeal.Val

end
-- ==== Proof.Region0.lean ====
/-
  What the first kernel region (the class sums and class counts) leaves in its two result arrays, over the extended
  reals: half a's [64, 192] block of the first is that half's class sums, half a's [1, 64] block of the second that
  half's class counts, each accumulated over the half's sixteen row blocks from a zero block.
-/
import proofs.«410830_j15427522527361_3_alg».proof.Proof.Gen.KernelIdeal.Frame
import proofs.«410830_j15427522527361_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.Tactic
open Idealize.ShloMosaic.Pipeline (Dat)
open Idealize.ShloMosaic.ValueIdx

namespace Cert.KernelIdeal.Val

open Cert.KernelIdeal Cert.KernelIdeal.Gen

/-! ## The two result blocks point by point, and their sums over a half's sixteen row blocks -/
namespace Sums

section Pieces
variable {F : FTy → Type} [FloatOps F]

/-- The zero offsets of a rank-3 block, as the constant function. -/
theorem hz3 : (![0, 0, 0] : Fin 3 → Nat) = fun _ => 0 := funext fun a => by fin_cases a <;> rfl

/-- At a first row block the sums block is left at the update of the zero block. -/
theorem piece_A_2 (c : Dev nD) (i : grid0.Coords) (a2 : Memref sig .tc .vmem S1x8192x192 .f32) (h2 : a2.IsWhole)
    (a3 : Memref sig .tc .vmem S1x64x128 .i32) (h3 : a3.IsWhole) (a4 : Memref sig .tc .vmem S1x64x192 .f32) (h4 : a4.IsWhole)
    (a5 : Memref sig .tc .vmem S1x1x64 .f32) (h5 : a5.IsWhole) (hc : cond0_0 i)
    (x0 : Vec F S1x8192x192 .f32) (x1 : Vec F S1x64x128 .i32) :
    out0_A_2 c i a2 h2 a3 h3 a4 h4 a5 h5 hc x0 x1 = k0_pay4 x1 x0 (k0_pay1 (F := F)) := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1x64x192) hz3]
  simp only [View.readAt_eq_ld, h2.read_unread, h3.read_unread, View.ld_unit_zero (S := S1x8192x192) hz3,
    View.ld_unit_zero (S := S1x64x128) hz3, View.readCov_unit_zero (S := S1x64x192) _ hz3]

/-- At a first row block the counts block is left at the update of the zero block. -/
theorem piece_A_3 (c : Dev nD) (i : grid0.Coords) (a2 : Memref sig .tc .vmem S1x8192x192 .f32) (h2 : a2.IsWhole)
    (a3 : Memref sig .tc .vmem S1x64x128 .i32) (h3 : a3.IsWhole) (a4 : Memref sig .tc .vmem S1x64x192 .f32) (h4 : a4.IsWhole)
    (a5 : Memref sig .tc .vmem S1x1x64 .f32) (h5 : a5.IsWhole) (hc : cond0_0 i)
    (x0 : Vec F S1x8192x192 .f32) (x1 : Vec F S1x64x128 .i32) :
    out0_A_3 c i a2 h2 a3 h3 a4 h4 a5 h5 hc x0 x1 = k0_pay5 x1 (k0_pay2 (F := F)) := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x1x64) hz3]
  simp only [View.readAt_eq_ld, h3.read_unread, View.ld_unit_zero (S := S1x64x128) hz3,
    View.readCov_unit_zero (S := S1x1x64) _ hz3]

/-- At a later row block the sums block is left at the update of what the block before left. -/
theorem piece_B_2 (c : Dev nD) (i : grid0.Coords) (a2 : Memref sig .tc .vmem S1x8192x192 .f32) (h2 : a2.IsWhole)
    (a3 : Memref sig .tc .vmem S1x64x128 .i32) (h3 : a3.IsWhole) (a4 : Memref sig .tc .vmem S1x64x192 .f32) (h4 : a4.IsWhole)
    (a5 : Memref sig .tc .vmem S1x1x64 .f32) (h5 : a5.IsWhole) (hc : ¬cond0_0 i)
    (x0 : Vec F S1x8192x192 .f32) (x1 : Vec F S1x64x128 .i32) (xo2 : Vec F S1x64x192 .f32) (xo3 : Vec F S1x1x64 .f32) :
    out0_B_2 c i a2 h2 a3 h3 a4 h4 a5 h5 hc x0 x1 xo2 xo3 = k0_pay4 x1 x0 xo2 := by
  unfold out0_B_2
  rw [View.read_writes_eq_canon _ _ _ (cover0_B_2 c i a2 h2 a3 h3 a4 h4 a5 h5 hc x0 x1 xo2 xo3)]
  unfold kernelRun0_B
  dsimp only
  sl_unfold_words
  rw [View.canon_unit_zero hz3]
  simp only [View.readAt_eq_ld, h2.read_unread, h3.read_unread, h4.read_unread, View.ld_unit_zero (S := S1x8192x192) hz3,
    View.ld_unit_zero (S := S1x64x128) hz3, View.ld_unit_zero (S := S1x64x192) hz3]

/-- At a later row block the counts block is left at the update of what the block before left. -/
theorem piece_B_3 (c : Dev nD) (i : grid0.Coords) (a2 : Memref sig .tc .vmem S1x8192x192 .f32) (h2 : a2.IsWhole)
    (a3 : Memref sig .tc .vmem S1x64x128 .i32) (h3 : a3.IsWhole) (a4 : Memref sig .tc .vmem S1x64x192 .f32) (h4 : a4.IsWhole)
    (a5 : Memref sig .tc .vmem S1x1x64 .f32) (h5 : a5.IsWhole) (hc : ¬cond0_0 i)
    (x0 : Vec F S1x8192x192 .f32) (x1 : Vec F S1x64x128 .i32) (xo2 : Vec F S1x64x192 .f32) (xo3 : Vec F S1x1x64 .f32) :
    out0_B_3 c i a2 h2 a3 h3 a4 h4 a5 h5 hc x0 x1 xo2 xo3 = k0_pay5 x1 xo3 := by
  unfold out0_B_3
  rw [View.read_writes_eq_canon _ _ _ (cover0_B_3 c i a2 h2 a3 h3 a4 h4 a5 h5 hc x0 x1 xo2 xo3)]
  unfold kernelRun0_B
  dsimp only
  sl_unfold_words
  rw [View.canon_unit_zero hz3]
  simp only [View.readAt_eq_ld, h3.read_unread, h5.read_unread, View.ld_unit_zero (S := S1x64x128) hz3,
    View.ld_unit_zero (S := S1x1x64) hz3]

end Pieces

section Payloads

open Cert.Cluster (oh lcol)

/-- The row of a label inside its [64, 128] block: row r of the 8192 sits at sublane row r / 128. -/
def brow (r : Fin 8192) : Fin 64 := ⟨r.val / 128, by have := r.isLt; omega⟩

/-- The one-hot entry as the kernel computes it: the bit of the word comparison, widened and read as a signed
    integer, is 1 when the label names the class and 0 otherwise. -/
theorem oh_word (w : BitVec 32) (k : Fin 64) :
    ((((IntOp.cmpi .eq w (BitVec.ofNat 32 k.val)).setWidth 32).toInt : ℝ) : EReal) = oh w k := by
  unfold oh IntOp.cmpi
  by_cases h : w = BitVec.ofNat 32 k.val
  · have hb : (w == BitVec.ofNat 32 k.val) = true := by rw [h]; exact beq_self_eq_true _
    rw [if_pos h]
    simp only [hb]
    have : ((BitVec.ofBool true).setWidth 32).toInt = 1 := by decide
    rw [this]; simp
  · have hb : (w == BitVec.ofNat 32 k.val) = false := by
      cases hq : (w == BitVec.ofNat 32 k.val) with
      | false => rfl
      | true => exact absurd (eq_of_beq hq) h
    rw [if_neg h]
    simp only [hb]
    have : ((BitVec.ofBool false).setWidth 32).toInt = 0 := by decide
    rw [this]; simp

/-- The class sums' contraction: the left operand is read at (row, class), -/
theorem lhs_dot_0 (j : S64x192.Idx) (q : dot_S8192x64_S8192x192_S64x192_0_0_1_1_n_n.contr.Idx) :
    (dot_S8192x64_S8192x192_S64x192_0_0_1_1_n_n.lhsIdx j q 0).val = (q ⟨0, by decide⟩).val :=
  dot_S8192x64_S8192x192_S64x192_0_0_1_1_n_n.lhsIdx_val_of_single rfl j q
theorem lhs_dot_1 (j : S64x192.Idx) (q : dot_S8192x64_S8192x192_S64x192_0_0_1_1_n_n.contr.Idx) :
    (dot_S8192x64_S8192x192_S64x192_0_0_1_1_n_n.lhsIdx j q 1).val = (j 0).val := rfl
/-- and the right operand at (row, column). -/
theorem rhs_dot_0 (j : S64x192.Idx) (q : dot_S8192x64_S8192x192_S64x192_0_0_1_1_n_n.contr.Idx) :
    (dot_S8192x64_S8192x192_S64x192_0_0_1_1_n_n.rhsIdx j q 0).val = (q ⟨0, by decide⟩).val :=
  dot_S8192x64_S8192x192_S64x192_0_0_1_1_n_n.rhsIdx_val_of_single rfl j q
theorem rhs_dot_1 (j : S64x192.Idx) (q : dot_S8192x64_S8192x192_S64x192_0_0_1_1_n_n.contr.Idx) :
    (dot_S8192x64_S8192x192_S64x192_0_0_1_1_n_n.rhsIdx j q 1).val = (j 1).val := rfl

/-- The comparison the kernel builds, at (row r, class k): the label of row r against the class's word. -/
theorem pay3_apply {F : FTy → Type} [FloatOps F] (lb : Vec F S1x64x128 .i32) (r : Fin 8192) (k : Fin 64) :
    k0_pay3 lb (ix2 r k) = IntOp.cmpi .eq (lb (ix3 0 (brow r) (lcol r))) (BitVec.ofNat 32 k.val) := by
  unfold k0_pay3
  show IntOp.cmpi .eq _ _ = _
  congr 1
  · refine (broadcastTo_apply _ _ (ix2 r k) (ix2 r (0 : Fin 1)) ?_).trans ?_
    · intro a
      match a with
      | ⟨0, _⟩ => rfl
      | ⟨1, _⟩ => rfl
    refine (shapeCast_apply _ _ (ix2 r (0 : Fin 1)) (ix2 (brow r) (lcol r)) ?_).trans ?_
    · rw [Shape.rowMajor_val_two, Shape.rowMajor_val_two]
      show (r.val / 128) * 128 + r.val % 128 = r.val * 1 + 0
      omega
    refine shapeCast_apply _ _ (ix2 (brow r) (lcol r)) (ix3 0 (brow r) (lcol r)) ?_
    rw [Shape.rowMajor_val_two, Shape.rowMajor_val_three]
    show (0 * 64 + r.val / 128) * 128 + r.val % 128 = (r.val / 128) * 128 + r.val % 128
    omega
  · refine (broadcastTo_apply _ _ (ix2 r k) (ix2 (0 : Fin 1) k) ?_).trans ?_
    · intro a
      match a with
      | ⟨0, _⟩ => rfl
      | ⟨1, _⟩ => rfl
    exact iota_single_apply .tc S1x64 32 1 _ (ix2 (0 : Fin 1) k)

end Payloads

section Payloads2

open Cert.Cluster (oh lcol)

/-- The zero sums block is 0 at every entry. -/
theorem pay1_apply (y : S1x64x192.Idx) : k0_pay1 (F := Ideal) y = 0 := by
  unfold k0_pay1
  refine (shapeCast_addUnit_apply _ _ _ y).trans ?_
  exact Ideal.ofBits_zero_f32

/-- The zero counts block is 0 at every entry. -/
theorem pay2_apply (y : S1x1x64.Idx) : k0_pay2 (F := Ideal) y = 0 := by
  unfold k0_pay2
  refine (shapeCast_addUnit_apply _ _ _ y).trans ?_
  exact Ideal.ofBits_zero_f32

/-- The contraction's left index at (class k, column d) and row r is (r, k). -/
theorem lhs_at (k : Fin 64) (d : Fin 192) (r : Fin 8192) :
    dot_S8192x64_S8192x192_S64x192_0_0_1_1_n_n.lhsIdx (ix2 k d)
        ((contrEquiv1 dot_S8192x64_S8192x192_S64x192_0_0_1_1_n_n 8192 rfl rfl).symm r) = ix2 r k := by
  funext a
  apply Fin.ext
  match a with
  | ⟨0, _⟩ => exact (lhs_dot_0 _ _).trans (contrEquiv1_symm_val _ 8192 rfl rfl r)
  | ⟨1, _⟩ => exact lhs_dot_1 _ _

/-- The contraction's right index at (class k, column d) and row r is (r, d). -/
theorem rhs_at (k : Fin 64) (d : Fin 192) (r : Fin 8192) :
    dot_S8192x64_S8192x192_S64x192_0_0_1_1_n_n.rhsIdx (ix2 k d)
        ((contrEquiv1 dot_S8192x64_S8192x192_S64x192_0_0_1_1_n_n 8192 rfl rfl).symm r) = ix2 r d := by
  funext a
  apply Fin.ext
  match a with
  | ⟨0, _⟩ => exact (rhs_dot_0 _ _).trans (contrEquiv1_symm_val _ 8192 rfl rfl r)
  | ⟨1, _⟩ => exact rhs_dot_1 _ _

/-- The sums update at (class k, column d): what was there plus the sum, over the block's rows of class k, of
    column d. -/
theorem pay4_apply (lb : Vec Ideal S1x64x128 .i32) (xb : Vec Ideal S1x8192x192 .f32) (prev : Vec Ideal S1x64x192 .f32)
    (k : Fin 64) (d : Fin 192) :
    k0_pay4 (F := Ideal) lb xb prev (ix3 0 k d)
      = prev (ix3 0 k d) + ∑ r : Fin 8192, oh (lb (ix3 0 (brow r) (lcol r))) k * xb (ix3 0 r d) := by
  unfold k0_pay4
  refine (shapeCast_apply _ _ (ix3 0 k d) (ix2 k d) ?_).trans ?_
  · rw [Shape.rowMajor_val_two, Shape.rowMajor_val_three]
    show k.val * 192 + d.val = (0 * 64 + k.val) * 192 + d.val
    omega
  refine (addf_apply _ _ (ix2 k d)).trans ?_
  refine congrArg₂ (· + ·) ?_ ?_
  · refine shapeCast_apply _ _ (ix2 k d) (ix3 0 k d) ?_
    rw [Shape.rowMajor_val_two, Shape.rowMajor_val_three]
    show (0 * 64 + k.val) * 192 + d.val = k.val * 192 + d.val
    omega
  · refine (Ideal.matmul_constant_zero_apply dot_S8192x64_S8192x192_S64x192_0_0_1_1_n_n none _ _ (ix2 k d)).trans ?_
    refine (Equiv.sum_comp (contrEquiv1 dot_S8192x64_S8192x192_S64x192_0_0_1_1_n_n 8192 rfl rfl).symm _).symm.trans ?_
    refine Finset.sum_congr rfl fun r _ => ?_
    rw [lhs_at k d r, rhs_at k d r]
    refine congrArg₂ (· * ·) ?_ ?_
    · show (((((k0_pay3 lb (ix2 r k)).setWidth 32).toInt : ℝ)) : EReal) = _
      rw [pay3_apply]
      exact oh_word _ k
    · show shapeCast S8192x192 xb _ (ix2 r d) = _
      refine shapeCast_apply _ _ (ix2 r d) (ix3 0 r d) ?_
      rw [Shape.rowMajor_val_two, Shape.rowMajor_val_three]
      show (0 * 8192 + r.val) * 192 + d.val = r.val * 192 + d.val
      omega

/-- The counts update at class k: what was there plus the number of the block's rows of class k. -/
theorem pay5_apply (lb : Vec Ideal S1x64x128 .i32) (prev : Vec Ideal S1x1x64 .f32) (k : Fin 64) :
    k0_pay5 (F := Ideal) lb prev (ix3 0 0 k)
      = prev (ix3 0 0 k) + ∑ r : Fin 8192, oh (lb (ix3 0 (brow r) (lcol r))) k := by
  unfold k0_pay5
  refine (shapeCast_apply _ _ (ix3 0 0 k) (ix2 0 k) ?_).trans ?_
  · rw [Shape.rowMajor_val_two, Shape.rowMajor_val_three]
    show 0 * 64 + k.val = (0 * 1 + 0) * 64 + k.val
    omega
  refine (addf_apply _ _ (ix2 0 k)).trans ?_
  refine congrArg₂ (· + ·) ?_ ?_
  · refine shapeCast_apply _ _ (ix2 0 k) (ix3 0 0 k) ?_
    rw [Shape.rowMajor_val_two, Shape.rowMajor_val_three]
    show (0 * 1 + 0) * 64 + k.val = 0 * 64 + k.val
    omega
  · refine (shapeCast_apply _ _ (ix2 0 k) (ix1 k) ?_).trans ?_
    · rw [Shape.rowMajor_val_one, Shape.rowMajor_val_two]
      show k.val = 0 * 64 + k.val
      omega
    refine (Ideal.multiReduction_add_single _ 0x00000000#32 reduces_S8192x64_S64 _ _ (ix1 k)).trans ?_
    show ∑ r : Fin 8192, _ = ∑ r : Fin 8192, _
    refine Finset.sum_congr rfl fun (r : Fin 8192) _ => ?_
    show (((((k0_pay3 lb (reduces_S8192x64_S64.lift (ix1 k) r)).setWidth 32).toInt : ℝ)) : EReal) = _
    have e : reduces_S8192x64_S64.lift (ix1 k) r = ix2 r k := by
      funext a
      apply Fin.ext
      match a with
      | ⟨0, _⟩ => rfl
      | ⟨1, _⟩ => rfl
    rw [e, pay3_apply]
    exact oh_word _ k

end Payloads2

section Fold

open Cert.Cluster (oh lcol lrow xrow blkSums blkCnts)

variable (V : (c : Dev nD) → (b : Ref sig .tc) → Buf (Elt Ideal) ((c : Thread nD τ).loc b))

/-- The half and the row block that grid point n works on: point 16 a + j is row block j of half a. -/
def halfOf (n : ℕ) : Fin 2 := ⟨n / 16 % 2, Nat.mod_lt _ (by decide)⟩
def rblkOf (n : ℕ) : Fin 16 := ⟨n % 16, Nat.mod_lt _ (by decide)⟩

/-- The two input blocks of a point and the two arrays they are blocks of, at their literal types. -/
abbrev xblk (c : Dev nD) (t : Fin cfg0.N) : Vec Ideal S1x8192x192 .f32 := iblk0 V c 0 t
abbrev lblk (c : Dev nD) (t : Fin cfg0.N) : Vec Ideal S1x64x128 .i32 := iblk0 V c 1 t
abbrev xarr (c : Dev nD) : Vec Ideal S2x131072x192 .f32 := V c main_v0
abbrev larr (c : Dev nD) : Vec Ideal S2x1024x128 .i32 := V c main_v1

/-- The block index maps over the grid: the inputs' blocks move with (half, row block), the results' with the half. -/
theorem idx_facts : ∀ t : Fin cfg0.N,
    win0_0.index t (0 : Fin 3) = t.val / 16 % 2 ∧ win0_0.index t (1 : Fin 3) = t.val % 16 ∧ win0_0.index t (2 : Fin 3) = 0
    ∧ win0_1.index t (0 : Fin 3) = t.val / 16 % 2 ∧ win0_1.index t (1 : Fin 3) = t.val % 16 ∧ win0_1.index t (2 : Fin 3) = 0
    ∧ win0_2.index t (0 : Fin 3) = t.val / 16 % 2 ∧ win0_2.index t (1 : Fin 3) = 0 ∧ win0_2.index t (2 : Fin 3) = 0
    ∧ win0_3.index t (0 : Fin 3) = t.val / 16 % 2 ∧ win0_3.index t (1 : Fin 3) = 0 ∧ win0_3.index t (2 : Fin 3) = 0 :=
  (by decide +kernel : ∀ t : Fin grid0.N, _)

/-- Row r, column d of a point's logits block is row (row block, r) of its half. -/
theorem xblk_apply (c : Dev nD) (t : Fin cfg0.N) (r : Fin 8192) (d : Fin 192) :
    xblk V c t (ix3 0 r d) = xarr V c (ix3 (halfOf t.val) (xrow (rblkOf t.val) r) d) := by
  obtain ⟨e0, e1, e2, -⟩ := idx_facts t
  show V c main_v0 (((cfg0.win 0).blk t).view.emb (ix3 0 r d)) = V c main_v0 _
  refine congrArg (V c main_v0) (funext fun a => Fin.ext ?_)
  match a with
  | ⟨0, _⟩ => show win0_0.index t (0 : Fin 3) * 1 + 1 * 0 = t.val / 16 % 2; rw [e0]; omega
  | ⟨1, _⟩ => show win0_0.index t (1 : Fin 3) * 8192 + 1 * r.val = t.val % 16 * 8192 + r.val; rw [e1]; omega
  | ⟨2, _⟩ => show win0_0.index t (2 : Fin 3) * 192 + 1 * d.val = d.val; rw [e2]; omega

/-- The label of row r of a point's block sits, in its half, at sublane row (row block * 64 + r / 128), lane r % 128. -/
theorem lblk_apply (c : Dev nD) (t : Fin cfg0.N) (r : Fin 8192) :
    lblk V c t (ix3 0 (brow r) (lcol r)) = larr V c (ix3 (halfOf t.val) (lrow (rblkOf t.val) r) (lcol r)) := by
  obtain ⟨-, -, -, e0, e1, e2, -⟩ := idx_facts t
  show V c main_v1 (((cfg0.win 1).blk t).view.emb (ix3 0 (brow r) (lcol r))) = V c main_v1 _
  refine congrArg (V c main_v1) (funext fun a => Fin.ext ?_)
  match a with
  | ⟨0, _⟩ => show win0_1.index t (0 : Fin 3) * 1 + 1 * 0 = t.val / 16 % 2; rw [e0]; omega
  | ⟨1, _⟩ => show win0_1.index t (1 : Fin 3) * 64 + 1 * (r.val / 128) = t.val % 16 * 64 + r.val / 128; rw [e1]; omega
  | ⟨2, _⟩ => show win0_1.index t (2 : Fin 3) * 128 + 1 * (r.val % 128) = r.val % 128; rw [e2]; omega

/-- What grid point n adds to the sums block, and to the counts block. -/
def addS (c : Dev nD) (n : ℕ) (y : S1x64x192.Idx) : EReal :=
  ∑ r : Fin 8192, oh (larr V c (ix3 (halfOf n) (lrow (rblkOf n) r) (lcol r))) (y 1)
    * xarr V c (ix3 (halfOf n) (xrow (rblkOf n) r) (y 2))
def addC (c : Dev nD) (n : ℕ) (y : S1x1x64.Idx) : EReal :=
  ∑ r : Fin 8192, oh (larr V c (ix3 (halfOf n) (lrow (rblkOf n) r) (lcol r))) (y 2)

/-- Every index of a [1, 64, 192] block is (0, k, d); of a [1, 1, 64] block (0, 0, k). -/
theorem split_S (y : S1x64x192.Idx) : ∃ (k : Fin 64) (d : Fin 192), y = ix3 0 k d :=
  ⟨y 1, y 2, funext fun a => match a with
    | ⟨0, _⟩ => Fin.ext (by have h : (y 0).val < 1 := (y 0).isLt; show (y 0).val = 0; omega)
    | ⟨1, _⟩ => rfl
    | ⟨2, _⟩ => rfl⟩
theorem split_C (y : S1x1x64.Idx) : ∃ k : Fin 64, y = ix3 0 0 k :=
  ⟨y 2, funext fun a => match a with
    | ⟨0, _⟩ => Fin.ext (by have h : (y 0).val < 1 := (y 0).isLt; show (y 0).val = 0; omega)
    | ⟨1, _⟩ => Fin.ext (by have h : (y 1).val < 1 := (y 1).isLt; show (y 1).val = 0; omega)
    | ⟨2, _⟩ => rfl⟩

/-- The sums update at a point, at any index: what was there plus the point's addend. -/
theorem stepS (c : Dev nD) (t : Fin cfg0.N) (prev : Vec Ideal S1x64x192 .f32) (y : S1x64x192.Idx) :
    k0_pay4 (F := Ideal) (lblk V c t) (xblk V c t) prev y = prev y + addS V c t.val y := by
  obtain ⟨k, d, rfl⟩ := split_S y
  refine (pay4_apply (lblk V c t) (xblk V c t) prev k d).trans ?_
  refine congrArg (prev (ix3 0 k d) + ·) ?_
  unfold addS
  refine Finset.sum_congr rfl fun (r : Fin 8192) _ => ?_
  rw [lblk_apply V c t r, xblk_apply V c t r d]

/-- The counts update at a point, at any index. -/
theorem stepC (c : Dev nD) (t : Fin cfg0.N) (prev : Vec Ideal S1x1x64 .f32) (y : S1x1x64.Idx) :
    k0_pay5 (F := Ideal) (lblk V c t) prev y = prev y + addC V c t.val y := by
  obtain ⟨k, rfl⟩ := split_C y
  refine (pay5_apply (lblk V c t) prev k).trans ?_
  refine congrArg (prev (ix3 0 0 k) + ·) ?_
  unfold addC
  refine Finset.sum_congr rfl fun (r : Fin 8192) _ => ?_
  rw [lblk_apply V c t r]

/-- The sums block after point t: the addends of the points of t's half from its first row block up to t. -/
theorem sums_at (c : Dev nD) (t : Fin cfg0.N) (y : S1x64x192.Idx) :
    (outsAt0 V c t.val t.isLt).1 y
      = 0 + ∑ s ∈ Finset.range (t.val % 16 + 1), addS V c (16 * (t.val / 16) + s) y := by
  have h' : 16 * (t.val / 16) + t.val % 16 < cfg0.N := by rw [Nat.div_add_mod]; exact t.isLt
  have e := Pipeline.eq_accAt_of_mod (N := cfg0.N) (α := Vec Ideal S1x64x192 .f32)
    (fun n h => (outsAt0 V c n h).1) 16
    (fun n h => k0_pay4 (F := Ideal) (lblk V c ⟨n, h⟩) (xblk V c ⟨n, h⟩) (k0_pay1 (F := Ideal)))
    (fun n h acc => k0_pay4 (F := Ideal) (lblk V c ⟨n, h⟩) (xblk V c ⟨n, h⟩) acc)
    (fun n h hm => by
      show (outsAt0 V c n h).1 = _
      rw [outsAt0_A V c ⟨n, h⟩ hm]
      dsimp only
      exact piece_A_2 (F := Ideal) c (grid0.coords ⟨n, h⟩) (ms0_0 ⟨n, h⟩) (hs0_0 ⟨n, h⟩) (ms0_1 ⟨n, h⟩) (hs0_1 ⟨n, h⟩)
        (ms0_2 ⟨n, h⟩) (hs0_2 ⟨n, h⟩) (ms0_3 ⟨n, h⟩) (hs0_3 ⟨n, h⟩) ((hcond0_0 ⟨n, h⟩).mpr hm)
        (iblk0 V c 0 ⟨n, h⟩) (iblk0 V c 1 ⟨n, h⟩))
    (fun n h hm => by
      show (outsAt0 V c (n + 1) h).1 = _
      rw [outsAt0_B V c ⟨n + 1, h⟩ hm]
      dsimp only
      exact piece_B_2 (F := Ideal) c (grid0.coords ⟨n + 1, h⟩) (ms0_0 ⟨n + 1, h⟩) (hs0_0 ⟨n + 1, h⟩) (ms0_1 ⟨n + 1, h⟩)
        (hs0_1 ⟨n + 1, h⟩) (ms0_2 ⟨n + 1, h⟩) (hs0_2 ⟨n + 1, h⟩) (ms0_3 ⟨n + 1, h⟩) (hs0_3 ⟨n + 1, h⟩)
        (fun hq => hm ((hcond0_0 ⟨n + 1, h⟩).mp hq)) (iblk0 V c 0 ⟨n + 1, h⟩) (iblk0 V c 1 ⟨n + 1, h⟩)
        (outsAt0 V c n (Nat.lt_of_succ_lt h)).1 (outsAt0 V c n (Nat.lt_of_succ_lt h)).2)
    (by decide) t.val t.isLt h'
  refine (congrFun e y).trans ?_
  exact Pipeline.accAt_add_apply _ _ (fun _ => (0 : EReal)) (addS V c) (16 * (t.val / 16)) 15
    (fun h i => (stepS V c ⟨_, h⟩ (k0_pay1 (F := Ideal)) i).trans (by rw [pay1_apply]))
    (fun n h acc i _ _ => stepS V c ⟨n, h⟩ acc i)
    (t.val % 16) (by omega) h' y

/-- The counts block after point t, likewise. -/
theorem cnts_at (c : Dev nD) (t : Fin cfg0.N) (y : S1x1x64.Idx) :
    (outsAt0 V c t.val t.isLt).2 y
      = 0 + ∑ s ∈ Finset.range (t.val % 16 + 1), addC V c (16 * (t.val / 16) + s) y := by
  have h' : 16 * (t.val / 16) + t.val % 16 < cfg0.N := by rw [Nat.div_add_mod]; exact t.isLt
  have e := Pipeline.eq_accAt_of_mod (N := cfg0.N) (α := Vec Ideal S1x1x64 .f32)
    (fun n h => (outsAt0 V c n h).2) 16
    (fun n h => k0_pay5 (F := Ideal) (lblk V c ⟨n, h⟩) (k0_pay2 (F := Ideal)))
    (fun n h acc => k0_pay5 (F := Ideal) (lblk V c ⟨n, h⟩) acc)
    (fun n h hm => by
      show (outsAt0 V c n h).2 = _
      rw [outsAt0_A V c ⟨n, h⟩ hm]
      dsimp only
      exact piece_A_3 (F := Ideal) c (grid0.coords ⟨n, h⟩) (ms0_0 ⟨n, h⟩) (hs0_0 ⟨n, h⟩) (ms0_1 ⟨n, h⟩) (hs0_1 ⟨n, h⟩)
        (ms0_2 ⟨n, h⟩) (hs0_2 ⟨n, h⟩) (ms0_3 ⟨n, h⟩) (hs0_3 ⟨n, h⟩) ((hcond0_0 ⟨n, h⟩).mpr hm)
        (iblk0 V c 0 ⟨n, h⟩) (iblk0 V c 1 ⟨n, h⟩))
    (fun n h hm => by
      show (outsAt0 V c (n + 1) h).2 = _
      rw [outsAt0_B V c ⟨n + 1, h⟩ hm]
      dsimp only
      exact piece_B_3 (F := Ideal) c (grid0.coords ⟨n + 1, h⟩) (ms0_0 ⟨n + 1, h⟩) (hs0_0 ⟨n + 1, h⟩) (ms0_1 ⟨n + 1, h⟩)
        (hs0_1 ⟨n + 1, h⟩) (ms0_2 ⟨n + 1, h⟩) (hs0_2 ⟨n + 1, h⟩) (ms0_3 ⟨n + 1, h⟩) (hs0_3 ⟨n + 1, h⟩)
        (fun hq => hm ((hcond0_0 ⟨n + 1, h⟩).mp hq)) (iblk0 V c 0 ⟨n + 1, h⟩) (iblk0 V c 1 ⟨n + 1, h⟩)
        (outsAt0 V c n (Nat.lt_of_succ_lt h)).1 (outsAt0 V c n (Nat.lt_of_succ_lt h)).2)
    (by decide) t.val t.isLt h'
  refine (congrFun e y).trans ?_
  exact Pipeline.accAt_add_apply _ _ (fun _ => (0 : EReal)) (addC V c) (16 * (t.val / 16)) 15
    (fun h i => (stepC V c ⟨_, h⟩ (k0_pay2 (F := Ideal)) i).trans (by rw [pay2_apply]))
    (fun n h acc i _ _ => stepC V c ⟨n, h⟩ acc i)
    (t.val % 16) (by omega) h' y

end Fold

section Arrays

open Cert.Cluster (oh lcol lrow xrow blkSums blkCnts)

variable (V : (c : Dev nD) → (b : Ref sig .tc) → Buf (Elt Ideal) ((c : Thread nD τ).loc b))

/-- Point 16 a + j works on half a, row block j. -/
theorem halfOf_pt (a : Fin 2) (j : Fin 16) : halfOf (16 * a.val + j.val) = a :=
  Fin.ext (by have := a.isLt; have := j.isLt; show (16 * a.val + j.val) / 16 % 2 = a.val; omega)
theorem rblkOf_pt (a : Fin 2) (j : Fin 16) : rblkOf (16 * a.val + j.val) = j :=
  Fin.ext (by have := j.isLt; show (16 * a.val + j.val) % 16 = j.val; omega)

/-- The sixteen points of half a add up to the half's class sums, -/
theorem sums_total (c : Dev nD) (a : Fin 2) (k : Fin 64) (d : Fin 192) :
    0 + ∑ s ∈ Finset.range 16, addS V c (16 * a.val + s) (ix3 0 k d) = blkSums (V c main_v0) (V c main_v1) a k d := by
  rw [zero_add, Finset.sum_range]
  unfold blkSums addS
  refine Finset.sum_congr rfl fun (j : Fin 16) _ => ?_
  rw [halfOf_pt a j, rblkOf_pt a j]

/-- and to its class counts. -/
theorem cnts_total (c : Dev nD) (a : Fin 2) (k : Fin 64) :
    0 + ∑ s ∈ Finset.range 16, addC V c (16 * a.val + s) (ix3 0 0 k) = blkCnts (V c main_v1) a k := by
  rw [zero_add, Finset.sum_range]
  unfold blkCnts addC
  refine Finset.sum_congr rfl fun (j : Fin 16) _ => ?_
  rw [halfOf_pt a j, rblkOf_pt a j]

/-- What a half's last point writes back to the sums array is the half's block of the class sums. -/
theorem flushed2_eq (c : Dev nD) (t : Fin cfg0.N) (hf : (cfg0.win 2).flush t = true) :
    (dat0 (F := Ideal) V c).flushed 2 t
      = ((cfg0.win 2).blk t).view.read (Elt Ideal)
          (fun i : S2x64x192.Idx => blkSums (V c main_v0) (V c main_v1) (i 0) (i 1) (i 2)) := by
  have h15 : t.val % 16 = 15 := (flush0_2 t).mp hf
  have hN : t.val < 32 := lt_of_lt_of_eq t.isLt (show cfg0.N = 32 from N_0)
  obtain ⟨-, -, -, -, -, -, e0, e1, e2, -⟩ := idx_facts t
  show (cfg0.win 2).cut (grid0.coords t) ((dat0 (F := Ideal) V c).after 2 t) = _
  rw [after0_2]
  funext y
  obtain ⟨k, d, rfl⟩ := split_S y
  have ea : ((cfg0.win 2).blk t).view.emb (ix3 0 k d) = (ix3 (⟨t.val / 16, by omega⟩ : Fin 2) k d : S2x64x192.Idx) := by
    refine funext fun x => Fin.ext ?_
    match x with
    | ⟨0, _⟩ => show win0_2.index t (0 : Fin 3) * 1 + 1 * 0 = t.val / 16; rw [e0]; omega
    | ⟨1, _⟩ => show win0_2.index t (1 : Fin 3) * 64 + 1 * k.val = k.val; rw [e1]; omega
    | ⟨2, _⟩ => show win0_2.index t (2 : Fin 3) * 192 + 1 * d.val = d.val; rw [e2]; omega
  show (outsAt0 V c t.val t.isLt).1 (ix3 0 k d)
    = (fun i : S2x64x192.Idx => blkSums (V c main_v0) (V c main_v1) (i 0) (i 1) (i 2)) (((cfg0.win 2).blk t).view.emb (ix3 0 k d))
  rw [ea, sums_at V c t (ix3 0 k d), h15]
  exact sums_total V c ⟨t.val / 16, by omega⟩ k d

/-- What a half's last point writes back to the counts array is the half's block of the class counts. -/
theorem flushed3_eq (c : Dev nD) (t : Fin cfg0.N) (hf : (cfg0.win 3).flush t = true) :
    (dat0 (F := Ideal) V c).flushed 3 t
      = ((cfg0.win 3).blk t).view.read (Elt Ideal)
          (fun i : S2x1x64.Idx => blkCnts (V c main_v1) (i 0) (i 2)) := by
  have h15 : t.val % 16 = 15 := (flush0_3 t).mp hf
  have hN : t.val < 32 := lt_of_lt_of_eq t.isLt (show cfg0.N = 32 from N_0)
  obtain ⟨-, -, -, -, -, -, -, -, -, e0, e1, e2⟩ := idx_facts t
  show (cfg0.win 3).cut (grid0.coords t) ((dat0 (F := Ideal) V c).after 3 t) = _
  rw [after0_3]
  funext y
  obtain ⟨k, rfl⟩ := split_C y
  have ea : ((cfg0.win 3).blk t).view.emb (ix3 0 0 k) = (ix3 (⟨t.val / 16, by omega⟩ : Fin 2) (0 : Fin 1) k : S2x1x64.Idx) := by
    refine funext fun x => Fin.ext ?_
    match x with
    | ⟨0, _⟩ => show win0_3.index t (0 : Fin 3) * 1 + 1 * 0 = t.val / 16; rw [e0]; omega
    | ⟨1, _⟩ => show win0_3.index t (1 : Fin 3) * 1 + 1 * 0 = 0; rw [e1]
    | ⟨2, _⟩ => show win0_3.index t (2 : Fin 3) * 64 + 1 * k.val = k.val; rw [e2]; omega
  show (outsAt0 V c t.val t.isLt).2 (ix3 0 0 k)
    = (fun i : S2x1x64.Idx => blkCnts (V c main_v1) (i 0) (i 2)) (((cfg0.win 3).blk t).view.emb (ix3 0 0 k))
  rw [ea, cnts_at V c t (ix3 0 0 k), h15]
  exact cnts_total V c ⟨t.val / 16, by omega⟩ k

/-- An index of the sums array is in point t's block iff each coordinate is in the block's range on its axis. -/
theorem mem_blk2 (t : Fin cfg0.N) (i : S2x64x192.Idx) :
    i ∈ ((cfg0.win 2).blk t).view.set
      ↔ ∀ a : Fin 3, win0_2.index t a * S1x64x192.size a ≤ (i a).val ∧ (i a).val < win0_2.index t a * S1x64x192.size a + S1x64x192.size a := by
  show i ∈ ((View.whole main_v2_0).slice (win0_2.rect t)).set ↔ _
  rw [View.set_slice_whole, Rect.mem_set_unit]
  exact Iff.rfl

/-- The same for the counts array. -/
theorem mem_blk3 (t : Fin cfg0.N) (i : S2x1x64.Idx) :
    i ∈ ((cfg0.win 3).blk t).view.set
      ↔ ∀ a : Fin 3, win0_3.index t a * S1x1x64.size a ≤ (i a).val ∧ (i a).val < win0_3.index t a * S1x1x64.size a + S1x1x64.size a := by
  show i ∈ ((View.whole main_v2_1).slice (win0_3.rect t)).set ↔ _
  rw [View.set_slice_whole, Rect.mem_set_unit]
  exact Iff.rfl

/-- The last point of half a. -/
def lastPt (a : ℕ) (ha : a < 2) : Fin cfg0.N := ⟨16 * a + 15, by rw [show cfg0.N = 32 from N_0]; omega⟩

/-- Every index of the sums array is in the block its half's last point writes back. -/
theorem cover2 (i : S2x64x192.Idx) :
    ∃ t : Fin cfg0.N, (cfg0.win 2).flush t = true ∧ i ∈ ((cfg0.win 2).blk t).view.set := by
  have h0 : (i 0).val < 2 := (i 0).isLt
  have h1 : (i 1).val < 64 := (i 1).isLt
  have h2 : (i 2).val < 192 := (i 2).isLt
  refine ⟨lastPt (i 0).val h0, (flush0_2 _).mpr (by show (16 * (i 0).val + 15) % 16 = 15; omega), ?_⟩
  obtain ⟨-, -, -, -, -, -, e0, e1, e2, -⟩ := idx_facts (lastPt (i 0).val h0)
  have ev : (lastPt (i 0).val h0).val = 16 * (i 0).val + 15 := rfl
  rw [ev] at e0
  rw [mem_blk2]
  intro a
  match a with
  | ⟨0, _⟩ =>
    show win0_2.index (lastPt (i 0).val h0) (0 : Fin 3) * 1 ≤ (i 0).val ∧ (i 0).val < win0_2.index (lastPt (i 0).val h0) (0 : Fin 3) * 1 + 1
    rw [e0]; omega
  | ⟨1, _⟩ =>
    show win0_2.index (lastPt (i 0).val h0) (1 : Fin 3) * 64 ≤ (i 1).val ∧ (i 1).val < win0_2.index (lastPt (i 0).val h0) (1 : Fin 3) * 64 + 64
    rw [e1]; omega
  | ⟨2, _⟩ =>
    show win0_2.index (lastPt (i 0).val h0) (2 : Fin 3) * 192 ≤ (i 2).val ∧ (i 2).val < win0_2.index (lastPt (i 0).val h0) (2 : Fin 3) * 192 + 192
    rw [e2]; omega

/-- Every index of the counts array is in the block its half's last point writes back. -/
theorem cover3 (i : S2x1x64.Idx) :
    ∃ t : Fin cfg0.N, (cfg0.win 3).flush t = true ∧ i ∈ ((cfg0.win 3).blk t).view.set := by
  have h0 : (i 0).val < 2 := (i 0).isLt
  have h1 : (i 1).val < 1 := (i 1).isLt
  have h2 : (i 2).val < 64 := (i 2).isLt
  refine ⟨lastPt (i 0).val h0, (flush0_3 _).mpr (by show (16 * (i 0).val + 15) % 16 = 15; omega), ?_⟩
  obtain ⟨-, -, -, -, -, -, -, -, -, e0, e1, e2⟩ := idx_facts (lastPt (i 0).val h0)
  have ev : (lastPt (i 0).val h0).val = 16 * (i 0).val + 15 := rfl
  rw [ev] at e0
  rw [mem_blk3]
  intro a
  match a with
  | ⟨0, _⟩ =>
    show win0_3.index (lastPt (i 0).val h0) (0 : Fin 3) * 1 ≤ (i 0).val ∧ (i 0).val < win0_3.index (lastPt (i 0).val h0) (0 : Fin 3) * 1 + 1
    rw [e0]; omega
  | ⟨1, _⟩ =>
    show win0_3.index (lastPt (i 0).val h0) (1 : Fin 3) * 1 ≤ (i 1).val ∧ (i 1).val < win0_3.index (lastPt (i 0).val h0) (1 : Fin 3) * 1 + 1
    rw [e1]; omega
  | ⟨2, _⟩ =>
    show win0_3.index (lastPt (i 0).val h0) (2 : Fin 3) * 64 ≤ (i 2).val ∧ (i 2).val < win0_3.index (lastPt (i 0).val h0) (2 : Fin 3) * 64 + 64
    rw [e2]; omega

end Arrays

end Sums

open Sums

variable (V : (c : Dev nD) → (b : Ref sig .tc) → Buf (Elt Ideal) ((c : Thread nD τ).loc b))

/-- The sums array after the region: at (a, k, d) half a's sum, over its rows of class k, of column d. -/
theorem arr0_2 (c : Dev nD) :
    ((dat0 (F := Ideal) V c).arrAt 2 cfg0.N : S2x64x192.Idx → EReal)
      = fun i => Cert.Cluster.blkSums (V c main_v0) (V c main_v1) (i 0) (i 1) (i 2) :=
  (dat0 (F := Ideal) V c).arrAt_eq_of_cover 2
    (fun i : S2x64x192.Idx => Cert.Cluster.blkSums (V c main_v0) (V c main_v1) (i 0) (i 1) (i 2))
    (flushed2_eq V c) cover2

/-- The counts array after the region: at (a, 0, k) the number of half a's rows of class k. -/
theorem arr0_3 (c : Dev nD) :
    ((dat0 (F := Ideal) V c).arrAt 3 cfg0.N : S2x1x64.Idx → EReal)
      = fun i => Cert.Cluster.blkCnts (V c main_v1) (i 0) (i 2) :=
  (dat0 (F := Ideal) V c).arrAt_eq_of_cover 3
    (fun i : S2x1x64.Idx => Cert.Cluster.blkCnts (V c main_v1) (i 0) (i 2))
    (flushed3_eq V c) cover3

end Cert.KernelIdeal.Val

end
-- ==== Proof.Glue1.lean ====
/-
  The contents the two kernel regions are entered with, read back to the arguments, over the extended reals:
  the first host stretch reshapes the logits to [2, 131072, 192] and the labels to the lane-dense [2, 1024, 128]
  (row-major: entry (a, q, d) is row a * 131072 + q, label (a, p, b) is row a * 131072 + p * 128 + b); the first
  region leaves them in place; the second host stretch adds the two halves' class sums and counts and divides, which
  is the table of class means.
-/
import proofs.«410830_j15427522527361_3_alg».proof.Proof.Gen.KernelIdeal.Frame
import proofs.«410830_j15427522527361_3_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«410830_j15427522527361_3_alg».proof.Proof.Region0
set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Val

open Cert.KernelIdeal Cert.KernelIdeal.Gen

variable (m : (ℓ : Loc nD τ sig) → Buf (Elt Ideal) ℓ) (ρ : Dev nD → PrngReg)

/-- The logits argument as launched, as a function of its index. -/
abbrev xarg (c : Dev nD) : Cert.Cluster.SX.Idx → EReal := m ((c : Thread nD τ).loc main_arg0)
/-- The labels argument as launched. -/
abbrev larg (c : Dev nD) : Cert.Cluster.SL.Idx → BitVec 32 := m ((c : Thread nD τ).loc main_arg1)

/-- Region 0 finds the logits reshaped: entry (a, q, d) is row a * 131072 + q, column d. -/
theorem V1_x3 (c : Dev nD) (a : Fin 2) (q : Fin 131072) (d : Fin 192) :
    (V1 m ρ c main_v0 : Cert.Cluster.SX3.Idx → EReal) (ix3 a q d)
      = xarg m c (ix2 (⟨a.val * 131072 + q.val, by have := a.isLt; have := q.isLt; omega⟩ : Fin 262144) d) := by
  have e : (V1 m ρ c main_v0 : S2x131072x192.Idx → EReal)
      = shapeCast S2x131072x192 (m ((c : Thread nD τ).loc main_arg0) : S262144x192.Idx → EReal) shapeCasts_S262144x192_S2x131072x192 := by
    show StableHlo.after hostOps0 (W0 m ρ c) (Proc.devRef .tc main_v0) = _
    after_results
    rfl
  rw [e]
  -- both indices sit at row-major position (a * 131072 + q) * 192 + d
  refine shapeCast_apply _ _ _ _ ?_
  refine (Shape.rowMajor_val_two (d := ![262144, 192]) _).trans
    (Eq.trans ?_ (Shape.rowMajor_val_three (d := ![2, 131072, 192]) (ix3 a q d)).symm)
  show (a.val * 131072 + q.val) * 192 + d.val = (a.val * 131072 + q.val) * 192 + d.val
  rfl

/-- Region 0 finds the labels lane-dense: entry (a, p, b) is the label of row a * 131072 + p * 128 + b. -/
theorem V1_l3 (c : Dev nD) (a : Fin 2) (p : Fin 1024) (b : Fin 128) :
    (V1 m ρ c main_v1 : Cert.Cluster.SL3.Idx → BitVec 32) (ix3 a p b)
      = larg m c (ix1 (⟨a.val * 131072 + p.val * 128 + b.val, by have := a.isLt; have := p.isLt; have := b.isLt; omega⟩ : Fin 262144)) := by
  have e : (V1 m ρ c main_v1 : S2x1024x128.Idx → BitVec 32)
      = shapeCast S2x1024x128 (m ((c : Thread nD τ).loc main_arg1) : S262144.Idx → BitVec 32) shapeCasts_S262144_S2x1024x128 := by
    show StableHlo.after hostOps0 (W0 m ρ c) (Proc.devRef .tc main_v1) = _
    after_results
    rfl
  rw [e]
  -- both indices sit at row-major position (a * 1024 + p) * 128 + b = a * 131072 + p * 128 + b
  refine shapeCast_apply _ _ _ _ ?_
  refine (Shape.rowMajor_val_one (d := ![262144]) _).trans
    (Eq.trans ?_ (Shape.rowMajor_val_three (d := ![2, 1024, 128]) (ix3 a p b)).symm)
  show a.val * 131072 + p.val * 128 + b.val = (a.val * 1024 + p.val) * 128 + b.val
  omega

/-- Region 1 finds the reshaped logits as region 0 did: no region and no host operation between writes them. -/
theorem V3_v0 (c : Dev nD) : V3 m ρ c main_v0 = V1 m ρ c main_v0 :=
  -- the second host stretch writes other buffers only; the first region reads this array through an input window
  calc V3 m ρ c main_v0
    _ = W2 m ρ c (Proc.devRef .tc main_v0) := StableHlo.after_of_forall_not_mem (b := Proc.devRef .tc main_v0) _ _ (List.forall_iff_forall_mem.mp (by
          simp only [hostOps1, List.Forall, StableHlo.nullary_writes, StableHlo.unary_writes, StableHlo.binary_writes,
            StableHlo.reshape_writes, Finset.mem_singleton]
          repeat' apply And.intro
          all_goals exact StableHlo.devRef_ne_of_ne (by decide)))
    _ = (dat0 (V1 m ρ) c).arrAt 0 cfg0.N := W2_arr m ρ c 0
    _ = (dat0 (V1 m ρ) c).A 0 := (dat0 (V1 m ρ) c).arrAt_in 0 rfl _
    _ = V1 m ρ c main_v0 := A_eq0 (V1 m ρ) c 0

/-- Region 1 finds the lane-dense labels as region 0 did. -/
theorem V3_v1 (c : Dev nD) : V3 m ρ c main_v1 = V1 m ρ c main_v1 :=
  -- the second host stretch writes other buffers only; the first region reads this array through an input window
  calc V3 m ρ c main_v1
    _ = W2 m ρ c (Proc.devRef .tc main_v1) := StableHlo.after_of_forall_not_mem (b := Proc.devRef .tc main_v1) _ _ (List.forall_iff_forall_mem.mp (by
          simp only [hostOps1, List.Forall, StableHlo.nullary_writes, StableHlo.unary_writes, StableHlo.binary_writes,
            StableHlo.reshape_writes, Finset.mem_singleton]
          repeat' apply And.intro
          all_goals exact StableHlo.devRef_ne_of_ne (by decide)))
    _ = (dat0 (V1 m ρ) c).arrAt 1 cfg0.N := W2_arr m ρ c 1
    _ = (dat0 (V1 m ρ) c).A 1 := (dat0 (V1 m ρ) c).arrAt_in 1 rfl _
    _ = V1 m ρ c main_v1 := A_eq0 (V1 m ρ) c 1

/-- The table the second host stretch computes, as its operations' term over the first region's two result arrays. -/
private theorem V3_v8_eq (c : Dev nD) :
    (V3 m ρ c main_v8 : S64x192.Idx → EReal)
      = Host.divf (F := Ideal)
          (Host.reduceAdd (F := Ideal) (W2 m ρ c (Proc.devRef .tc main_v2_0) : S2x64x192.Idx → EReal)
            (constant (F := Ideal) S_ .f32 0x00000000#32) reducesTo_S2x64x192_S64x192_d0 h_S_)
          (broadcastInDim S64x192 ![0, 1] bcast_S64x1_S64x192_0_1
            (broadcastInDim S64x1 ![0] bcast_S64_S64x1_0
              (shapeCast S64
                (Host.reduceAdd (F := Ideal) (W2 m ρ c (Proc.devRef .tc main_v2_1) : S2x1x64.Idx → EReal)
                  (constant (F := Ideal) S_ .f32 0x00000000#32) reducesTo_S2x1x64_S1x64_d0 h_S_)
                shapeCasts_S1x64_S64))) := by
  show StableHlo.after hostOps1 (W2 m ρ c) (Proc.devRef .tc main_v8) = _
  after_results
  rfl

/-- The host's sum over the halves of a [2, 64, 192] array from a zero start, at (k, d): the two halves' entries added. -/
private theorem reduce_halves_sums (X : S2x64x192.Idx → EReal) (k : Fin 64) (d : Fin 192) :
    Host.reduceAdd (F := Ideal) X (constant (F := Ideal) S_ .f32 0x00000000#32) reducesTo_S2x64x192_S64x192_d0 h_S_ (ix2 k d)
      = ∑ a : Fin 2, X (ix3 a k d) := by
  simp only [Host.reduceAdd, Ideal.hostReduceAdd_def]
  rw [Ideal.hostReduceAdd_single reducesTo_S2x64x192_S64x192_d0 (by decide)]
  rw [show (constant (F := Ideal) S_ .f32 0x00000000#32) (Shape.Idx.first h_S_) = (0 : EReal) from Ideal.ofBits_zero_f32, zero_add]
  refine Finset.sum_congr rfl fun a _ => ?_
  exact congrArg X (funext fun b => Fin.ext (by match b with | ⟨0, _⟩ => rfl | ⟨1, _⟩ => rfl | ⟨2, _⟩ => rfl))

/-- The same over a [2, 1, 64] array, at (u, k) with u the unit coordinate. -/
private theorem reduce_halves_cnts (X : S2x1x64.Idx → EReal) (u : Fin 1) (k : Fin 64) :
    Host.reduceAdd (F := Ideal) X (constant (F := Ideal) S_ .f32 0x00000000#32) reducesTo_S2x1x64_S1x64_d0 h_S_ (ix2 u k)
      = ∑ a : Fin 2, X (ix3 a u k) := by
  simp only [Host.reduceAdd, Ideal.hostReduceAdd_def]
  rw [Ideal.hostReduceAdd_single reducesTo_S2x1x64_S1x64_d0 (by decide)]
  rw [show (constant (F := Ideal) S_ .f32 0x00000000#32) (Shape.Idx.first h_S_) = (0 : EReal) from Ideal.ofBits_zero_f32, zero_add]
  refine Finset.sum_congr rfl fun a _ => ?_
  exact congrArg X (funext fun b => Fin.ext (by match b with | ⟨0, _⟩ => rfl | ⟨1, _⟩ => rfl | ⟨2, _⟩ => rfl))

/-- A [1, 64] row reshaped to [64], made a [64, 1] column and spread over 192 columns reads, at (k, d), the row at k. -/
private theorem spread_row (Y : S1x64.Idx → EReal) (k : Fin 64) (d : Fin 192) :
    broadcastInDim S64x192 ![0, 1] bcast_S64x1_S64x192_0_1
        (broadcastInDim S64x1 ![0] bcast_S64_S64x1_0 (shapeCast S64 Y shapeCasts_S1x64_S64)) (ix2 k d)
      = Y (ix2 (0 : Fin 1) k) := by
  rw [broadcastInDim_apply _ _ _ (ix2 k d) (ix2 k (0 : Fin 1)) (fun a => by
        match a with
        | ⟨0, _⟩ => rfl
        | ⟨1, _⟩ => rfl)]
  rw [broadcastInDim_apply _ _ _ (ix2 k (0 : Fin 1)) (ix1 k) (fun a => by
        match a with
        | ⟨0, _⟩ => rfl)]
  exact shapeCast_1a_a_apply Y shapeCasts_S1x64_S64 k

/-- Region 1 finds, as its table, the class means of the arguments. -/
theorem V3_means (c : Dev nD) :
    (V3 m ρ c main_v8 : Cert.Cluster.SM.Idx → EReal) = Cert.Cluster.means (xarg m c) (larg m c) := by
  funext i
  obtain ⟨k, d, rfl⟩ : ∃ k d, i = ix2 k d := ⟨i 0, i 1, eq_ix2 i⟩
  refine (congrFun (V3_v8_eq m ρ c) (ix2 k d)).trans ?_
  -- a quotient of two entries on each side: the numerators and the denominators agree
  show Ideal.div _ _ = Ideal.div (Cert.Cluster.sums (xarg m c) (larg m c) (ix2 k d)) (Cert.Cluster.cnts (larg m c) k)
  rw [reduce_halves_sums, spread_row, reduce_halves_cnts]
  have h2 : (W2 m ρ c (Proc.devRef .tc main_v2_0) : S2x64x192.Idx → EReal)
      = fun i => Cert.Cluster.blkSums (V1 m ρ c main_v0) (V1 m ρ c main_v1) (i 0) (i 1) (i 2) :=
    (W2_arr m ρ c 2).trans (arr0_2 (V1 m ρ) c)
  have h3 : (W2 m ρ c (Proc.devRef .tc main_v2_1) : S2x1x64.Idx → EReal)
      = fun i => Cert.Cluster.blkCnts (V1 m ρ c main_v1) (i 0) (i 2) :=
    (W2_arr m ρ c 3).trans (arr0_3 (V1 m ρ) c)
  rw [h2, h3]
  -- the two halves' class sums add up to the class sums, and the counts likewise
  show Ideal.div (∑ a : Fin 2, Cert.Cluster.blkSums (V1 m ρ c main_v0) (V1 m ρ c main_v1) a k d)
      (∑ a : Fin 2, Cert.Cluster.blkCnts (V1 m ρ c main_v1) a k) = _
  rw [Cert.Cluster.blkSums_total (xarg m c) (larg m c) (V1 m ρ c main_v0) (V1 m ρ c main_v1) (V1_x3 m ρ c) (V1_l3 m ρ c) k d,
    Cert.Cluster.blkCnts_total (larg m c) (V1 m ρ c main_v1) (V1_l3 m ρ c) k]

end Cert.KernelIdeal.Val

end
-- ==== Proof.Glue2.lean ====
/-
  The kernel program's result, over the extended reals, as a function of the two arguments: the host tail adds the
  two halves' sums of row distances (the intraclass term, from the class means) and subtracts the interclass term,
  which the tail computes from the table of class means alone.
-/
import proofs.«410830_j15427522527361_3_alg».proof.Proof.Gen.KernelIdeal.Frame
import proofs.«410830_j15427522527361_3_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«410830_j15427522527361_3_alg».proof.Proof.Region1
import proofs.«410830_j15427522527361_3_alg».proof.Proof.Glue1
set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Val

open Cert.KernelIdeal Cert.KernelIdeal.Gen

/-- The interclass term as the host tail computes it from a [64, 192] table: the sum over the ordered pairs of
    distinct classes of the distance between the two rows (each difference offset by eps before squaring). -/
def tailK {F : FTy → Type} [FloatOps F] (M : FVec F S64x192 .f32) : FVec F S_ .f32 :=
  have t1 : FVec F S64x1x192 .f32 := broadcastInDim S64x1x192 ![0, 2] bcast_S64x192_S64x1x192_0_2 M
  have t2 : FVec F S1x64x192 .f32 := broadcastInDim S1x64x192 ![1, 2] bcast_S64x192_S1x64x192_1_2 M
  have t3 : FVec F S64x64x192 .f32 := broadcastInDim S64x64x192 ![0, 1, 2] bcast_S64x1x192_S64x64x192_0_1_2 t1
  have t4 : FVec F S64x64x192 .f32 := broadcastInDim S64x64x192 ![0, 1, 2] bcast_S1x64x192_S64x64x192_0_1_2 t2
  have t5 : FVec F S64x64x192 .f32 := subf t3 t4
  have t6 : FVec F S64x64x192 .f32 := broadcastInDim S64x64x192 ![] bcast_S_S64x64x192 (constant S_ .f32 0x358637BD#32)
  have t7 : FVec F S64x64x192 .f32 := addf t5 t6
  have t8 : FVec F S64x64x192 .f32 := mulf t7 t7
  have t9 : FVec F S64x64 .f32 := Host.reduceAdd t8 (constant S_ .f32 0x00000000#32) reducesTo_S64x64x192_S64x64_d2 h_S_
  have t10 : FVec F S64x64 .f32 := Host.sqrt t9
  have t11 : IVec S64x64 32 := iotaInDim S64x64 32 0
  have t12 : IVec S64x64 32 := iotaInDim S64x64 32 1
  have t13 : IVec S64x64 32 := broadcastInDim S64x64 ![] bcast_S_S64x64 (constantI S_ 32 0#32)
  have t14 : IVec S64x64 32 := addi t11 t13
  have t15 : IVec S64x64 1 := cmpi .eq t14 t12
  have t16 : FVec F S64x64 .f32 := uitofp .f32 t15
  have t17 : FVec F S64x64 .f32 := broadcastInDim S64x64 ![] bcast_S_S64x64 (constant S_ .f32 0x3F800000#32)
  have t18 : FVec F S64x64 .f32 := subf t17 t16
  have t19 : FVec F S64x64 .f32 := mulf t10 t18
  Host.reduceAdd t19 (constant S_ .f32 0x00000000#32) reducesTo_S64x64_S_d0_1 h_S_

variable (m : (ℓ : Loc nD τ sig) → Buf (Elt Ideal) ℓ) (ρ : Dev nD → PrngReg)

/-- The host tail, run from the contents region 1 leaves: the result buffer is the sum of the region's result array
    over all its axes, minus the interclass term of the region's table. -/
private theorem W5_eq (c : Dev nD) :
    W5 m ρ c (Proc.devRef .tc main_v31)
      = subf (Host.reduceAdd (F := Ideal) (W4 m ρ c (Proc.devRef .tc main_v9)) (constant (F := Ideal) S_ .f32 0x00000000#32)
            reducesTo_S2x1x1_S_d0_1_2 h_S_)
          (tailK (F := Ideal) (W4 m ρ c (Proc.devRef .tc main_v8))) := by
  show StableHlo.after hostOps2 (W4 m ρ c) (Proc.devRef .tc main_v31) = _
  generalize W4 m ρ c = W
  dsimp only [hostOps2]
  after_results_simp
  rfl

/-- Region 1 leaves its table window as it found it: the class means. -/
private theorem W4_v8 (c : Dev nD) :
    (W4 m ρ c (Proc.devRef .tc main_v8) : Cert.Cluster.SM.Idx → EReal)
      = Cert.Cluster.means (xarg m c) (larg m c) :=
  ((W4_arr m ρ c 2).trans (((dat1 (V3 m ρ) c).arrAt_in 2 rfl _).trans (A_eq1 (V3 m ρ) c 2))).trans (V3_means m ρ c)

/-- Region 1 leaves in its result array, at (a, 0, 0), half a's sum of row distances from the class means. -/
private theorem W4_v9 (c : Dev nD) :
    (W4 m ρ c (Proc.devRef .tc main_v9) : S2x1x1.Idx → EReal)
      = fun i => Cert.Cluster.blkIntra (V1 m ρ c main_v0) (V1 m ρ c main_v1)
          (Cert.Cluster.means (xarg m c) (larg m c)) (i 0) := by
  have h := (W4_arr m ρ c 3).trans (arr1_3 (V3 m ρ) c)
  rw [V3_v0, V3_v1, V3_means] at h
  exact h

/-- The sum over the index set of a [2, 1, 1] array is the sum over its first coordinate. -/
private theorem sum_S2x1x1 (f : Fin 2 → EReal) : ∑ i : S2x1x1.Idx, f (i 0) = ∑ a : Fin 2, f a := by
  refine Fintype.sum_equiv
    { toFun := fun i => i 0
      invFun := fun a => ix3 a (0 : Fin 1) (0 : Fin 1)
      left_inv := fun i => by
        funext d
        match d with
        | ⟨0, _⟩ => rfl
        | ⟨1, _⟩ => exact Fin.ext (by have h : (i 1).val < 1 := (i 1).isLt; show 0 = (i 1).val; omega)
        | ⟨2, _⟩ => exact Fin.ext (by have h : (i 2).val < 1 := (i 2).isLt; show 0 = (i 2).val; omega)
      right_inv := fun a => rfl } _ _ (fun i => rfl)

/-- The host's sum of the result array over all three axes is the sum of all rows' distances. -/
private theorem reduce_v9 (c : Dev nD) :
    Host.reduceAdd (F := Ideal) (W4 m ρ c (Proc.devRef .tc main_v9)) (constant (F := Ideal) S_ .f32 0x00000000#32)
        reducesTo_S2x1x1_S_d0_1_2 h_S_
      = fun _ => Cert.Cluster.intra (xarg m c) (Cert.Cluster.means (xarg m c) (larg m c)) (larg m c) := by
  funext i
  rw [W4_v9]
  simp only [Host.reduceAdd, Ideal.hostReduceAdd_def]
  rw [Ideal.hostReduceAdd_total reducesTo_S2x1x1_S_d0_1_2 (fun b => b.elim0) _ _ i]
  rw [constant_apply, Ideal.ofBits_zero_f32, zero_add]
  rw [sum_S2x1x1 (fun a => Cert.Cluster.blkIntra (V1 m ρ c main_v0) (V1 m ρ c main_v1)
          (Cert.Cluster.means (xarg m c) (larg m c)) a)]
  exact Cert.Cluster.blkIntra_total (xarg m c) (larg m c) _ _ _ (V1_x3 m ρ c) (V1_l3 m ρ c)

/-- The result buffer's contents at the last segment boundary: the intraclass term minus the interclass term, both of
    the class means of the arguments. -/
theorem kernel_value (c : Dev nD) :
    (W5 m ρ c (Proc.devRef .tc main_v31) : S_.Idx → EReal)
      = subf (fun _ => Cert.Cluster.intra (xarg m c) (Cert.Cluster.means (xarg m c) (larg m c)) (larg m c))
          (tailK (F := Ideal) (Cert.Cluster.means (xarg m c) (larg m c))) := by
  rw [W5_eq m ρ c, reduce_v9 m ρ c, W4_v8 m ρ c]

end Cert.KernelIdeal.Val

end
-- ==== Proof.LibRowOps.lean ====
/-
  Row gathers and row scatter-adds read at an index.

  `x[idx]` along the leading axis of an [N, C] table, with one start word per result row (start indices [E, 1],
  result [E, C]): result element (e, c) is the table at (the start word of e read signed and clamped into
  [0, N - 1], c).  The accumulating scatter of [E, C] update rows into an [N, C] operand by one destination word
  per update row (indices [E, 1]): operand element (n, c) gains the sum of the updates' column c over the rows
  whose destination word, read signed and NOT clamped, is n; a row whose word is outside [0, N) is dropped.
  The same for a vector operand [N] and scalar updates [E].
-/
import Idealize.ShloMosaic.PureOps.Ideal
import Idealize.ShloMosaic.Lib.ValueIdx

noncomputable section

namespace Idealize.ShloMosaic.RowOps

open Idealize.ShloMosaic Idealize.ShloMosaic.ValueIdx

/-- The dimension numbers of a row gather: operand [N, C], start indices [E, 1], result [E, C]. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (e, c): the table at the clamped start row of e, column c. -/
theorem rowGather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N E C wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    show (rowGather N E C wf).start (ix2 e c) idx 0 + (rowGather N E C wf).batchCoord (ix2 e c) 0
      + (rowGather N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e c) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N E C wf).start (ix2 e c) idx 1 + (rowGather N E C wf).batchCoord (ix2 e c) 1
      + (rowGather N E C wf).offCoord (ix2 e c) 1 = c.val
    rw [GatherDims.batchCoord_eq_zero _ _ _ List.not_mem_nil]
    unfold GatherDims.start
    rw [dif_neg (show (1 : Fin 2) ∉ ([0] : List (Fin 2)) by decide)]
    simp only [Nat.add_zero, Nat.zero_add]
    unfold GatherDims.offCoord
    rw [dif_pos ((GatherDims.mem_sKept _ _).mpr ⟨(show (1 : Fin 2) ∉ ([0] : List (Fin 2)) by decide), List.not_mem_nil⟩)]
    rfl

/-- The dimension numbers of a row scatter: operand [N, C], scatter indices [E, 1], updates [E, C]. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On the row axis a row scatter's landing coordinate (start plus window) of update row p is the destination word
    of p read signed: the axis is in the index map and is an inserted axis (window coordinate 0). -/
theorem rowScatter_land0 {N E C w : Nat}
    (wf : ScatterDims.WF ⟨2, ![N, C]⟩ ⟨2, ![E, 1]⟩ ⟨2, ![E, C]⟩ [1] [0] [0] 1)
    (idx : IVec ⟨2, ![E, 1]⟩ w) (p : Fin E) (q : Fin C) :
    (rowScatter N E C wf).start (ix2 p q) idx 0 + ((rowScatter N E C wf).window (ix2 p q) 0 : ℤ)
      = (idx (ix2 p (0 : Fin 1))).toInt := by
  have hw : (rowScatter N E C wf).window (ix2 p q) 0 = 0 := by
    unfold ScatterDims.window
    rw [dif_neg (show (0 : Fin 2) ∉ Shape.kept (⟨2, ![N, C]⟩ : Shape) ([0] : List (Fin 2)) by simp [Shape.kept])]
  rw [hw]
  unfold ScatterDims.start
  rw [dif_pos (show (0 : Fin 2) ∈ ([0] : List (Fin 2)) from List.mem_singleton.mpr rfl)]
  have hsi : (rowScatter N E C wf).siIdx (ix2 p q) ⟨List.idxOf (0 : Fin 2) (rowScatter N E C wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  simp

/-- On the column axis a row scatter's landing coordinate of update element (p, q) is q: the axis is not in the index
    map (start 0) and is the one window axis. -/
theorem rowScatter_land1 {N E C w : Nat}
    (wf : ScatterDims.WF ⟨2, ![N, C]⟩ ⟨2, ![E, 1]⟩ ⟨2, ![E, C]⟩ [1] [0] [0] 1)
    (idx : IVec ⟨2, ![E, 1]⟩ w) (p : Fin E) (q : Fin C) :
    (rowScatter N E C wf).start (ix2 p q) idx 1 + ((rowScatter N E C wf).window (ix2 p q) 1 : ℤ) = (q.val : ℤ) := by
  have hs : (rowScatter N E C wf).start (ix2 p q) idx 1 = 0 := by
    unfold ScatterDims.start
    rw [dif_neg (show (1 : Fin 2) ∉ ([0] : List (Fin 2)) by decide)]
  have hw : (rowScatter N E C wf).window (ix2 p q) 1 = q.val := by
    unfold ScatterDims.window
    rw [dif_pos (show (1 : Fin 2) ∈ Shape.kept (⟨2, ![N, C]⟩ : Shape) ([0] : List (Fin 2)) by simp [Shape.kept, List.mem_finRange])]
    rfl
  rw [hs, hw, Int.zero_add]

/-- Where an update element of a row scatter lands: element (p, q) lands on operand element (n, c) exactly when q = c
    and the destination word of row p, read signed, is n. -/
theorem rowScatter_resultIdx?_eq_some_iff {N E C w : Nat}
    (wf : ScatterDims.WF ⟨2, ![N, C]⟩ ⟨2, ![E, 1]⟩ ⟨2, ![E, C]⟩ [1] [0] [0] 1)
    (idx : IVec ⟨2, ![E, 1]⟩ w) (p : Fin E) (q : Fin C) (n : Fin N) (c : Fin C) :
    (rowScatter N E C wf).resultIdx? (ix2 p q) idx = some (ix2 n c)
      ↔ (q = c ∧ (idx (ix2 p (0 : Fin 1))).toInt = (n.val : ℤ)) := by
  have h0 := rowScatter_land0 wf idx p q
  have h1 := rowScatter_land1 wf idx p q
  unfold ScatterDims.resultIdx?
  split
  · rename_i h
    rw [Option.some.injEq]
    constructor
    · intro hf
      have e0 : ((rowScatter N E C wf).start (ix2 p q) idx 0 + ((rowScatter N E C wf).window (ix2 p q) 0 : ℤ)).toNat = n.val :=
        congrArg Fin.val (congrFun hf 0)
      have e1 : ((rowScatter N E C wf).start (ix2 p q) idx 1 + ((rowScatter N E C wf).window (ix2 p q) 1 : ℤ)).toNat = c.val :=
        congrArg Fin.val (congrFun hf 1)
      have p0 := (h 0).1
      rw [h0] at e0 p0
      rw [h1] at e1
      refine ⟨Fin.ext (by omega), by omega⟩
    · rintro ⟨hq, hn⟩
      funext a
      refine Fin.ext ?_
      match a with
      | ⟨0, _⟩ =>
        show ((rowScatter N E C wf).start (ix2 p q) idx 0 + ((rowScatter N E C wf).window (ix2 p q) 0 : ℤ)).toNat = n.val
        rw [h0, hn]; simp
      | ⟨1, _⟩ =>
        show ((rowScatter N E C wf).start (ix2 p q) idx 1 + ((rowScatter N E C wf).window (ix2 p q) 1 : ℤ)).toNat = c.val
        rw [h1, hq]; simp
  · rename_i h
    constructor
    · intro hf; exact absurd hf (by simp)
    · rintro ⟨hq, hn⟩
      exfalso
      apply h
      intro a
      match a with
      | ⟨0, _⟩ =>
        show 0 ≤ (rowScatter N E C wf).start (ix2 p q) idx 0 + ((rowScatter N E C wf).window (ix2 p q) 0 : ℤ)
          ∧ (rowScatter N E C wf).start (ix2 p q) idx 0 + ((rowScatter N E C wf).window (ix2 p q) 0 : ℤ) < (N : ℤ)
        rw [h0, hn]
        have := n.isLt
        omega
      | ⟨1, _⟩ =>
        show 0 ≤ (rowScatter N E C wf).start (ix2 p q) idx 1 + ((rowScatter N E C wf).window (ix2 p q) 1 : ℤ)
          ∧ (rowScatter N E C wf).start (ix2 p q) idx 1 + ((rowScatter N E C wf).window (ix2 p q) 1 : ℤ) < (C : ℤ)
        rw [h1]
        have := q.isLt
        omega

/-- THE ROW SCATTER-ADD READ AT (n, c): the operand's element plus the updates' column c summed over the rows sent to n. -/
theorem rowScatterAdd_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowScatter N E C wf) x idx upd (ix2 n c)
      = x (ix2 n c) + ∑ e ∈ Finset.univ.filter (fun e : Fin E => (idx (ix2 e (0 : Fin 1))).toInt = (n.val : ℤ)),
          upd (ix2 e c) := by
  unfold Ideal.hostScatterAdd
  congr 1
  refine Finset.sum_nbij' (fun j => (j 0 : Fin E)) (fun e => ix2 e c) ?_ ?_ ?_ ?_ ?_
  · intro j hj
    obtain ⟨p, q, rfl⟩ : ∃ (p : Fin E) (q : Fin C), j = ix2 p q := ⟨j 0, j 1, eq_ix2 j⟩
    rw [Finset.mem_filter] at hj
    exact Finset.mem_filter.mpr ⟨Finset.mem_univ _, ((rowScatter_resultIdx?_eq_some_iff wf idx p q n c).mp hj.2).2⟩
  · intro e he
    rw [Finset.mem_filter] at he ⊢
    exact ⟨Finset.mem_univ _, (rowScatter_resultIdx?_eq_some_iff wf idx e c n c).mpr ⟨rfl, he.2⟩⟩
  · intro j hj
    obtain ⟨p, q, rfl⟩ : ∃ (p : Fin E) (q : Fin C), j = ix2 p q := ⟨j 0, j 1, eq_ix2 j⟩
    rw [Finset.mem_filter] at hj
    obtain ⟨rfl, _⟩ := (rowScatter_resultIdx?_eq_some_iff wf idx p q n c).mp hj.2
    rfl
  · intro e _
    rfl
  · intro j hj
    obtain ⟨p, q, rfl⟩ : ∃ (p : Fin E) (q : Fin C), j = ix2 p q := ⟨j 0, j 1, eq_ix2 j⟩
    rw [Finset.mem_filter] at hj
    obtain ⟨rfl, _⟩ := (rowScatter_resultIdx?_eq_some_iff wf idx p q n c).mp hj.2
    rfl

/-- The dimension numbers of a scatter into a vector: operand [N], scatter indices [E, 1], updates [E]. -/
abbrev vecScatter (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A vector scatter's landing coordinate (start plus window) of update position p is the destination word of p read
    signed: the one operand axis is in the index map and is an inserted axis (window coordinate 0). -/
theorem vecScatter_land {N E w : Nat}
    (wf : ScatterDims.WF ⟨1, ![N]⟩ ⟨2, ![E, 1]⟩ ⟨1, ![E]⟩ [] [0] [0] 1)
    (idx : IVec ⟨2, ![E, 1]⟩ w) (p : Fin E) :
    (vecScatter N E wf).start (ix1 p) idx 0 + ((vecScatter N E wf).window (ix1 p) 0 : ℤ)
      = (idx (ix2 p (0 : Fin 1))).toInt := by
  have hw : (vecScatter N E wf).window (ix1 p) 0 = 0 := by
    unfold ScatterDims.window
    rw [dif_neg (show (0 : Fin 1) ∉ Shape.kept (⟨1, ![N]⟩ : Shape) ([0] : List (Fin 1)) by simp [Shape.kept])]
  rw [hw]
  unfold ScatterDims.start
  rw [dif_pos (show (0 : Fin 1) ∈ ([0] : List (Fin 1)) from List.mem_singleton.mpr rfl)]
  have hsi : (vecScatter N E wf).siIdx (ix1 p) ⟨List.idxOf (0 : Fin 1) (vecScatter N E wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  simp

/-- Where an update of a vector scatter lands: position p lands on operand element n exactly when the destination
    word of p, read signed, is n. -/
theorem vecScatter_resultIdx?_eq_some_iff {N E w : Nat}
    (wf : ScatterDims.WF ⟨1, ![N]⟩ ⟨2, ![E, 1]⟩ ⟨1, ![E]⟩ [] [0] [0] 1)
    (idx : IVec ⟨2, ![E, 1]⟩ w) (p : Fin E) (n : Fin N) :
    (vecScatter N E wf).resultIdx? (ix1 p) idx = some (ix1 n)
      ↔ (idx (ix2 p (0 : Fin 1))).toInt = (n.val : ℤ) := by
  have h0 := vecScatter_land wf idx p
  unfold ScatterDims.resultIdx?
  split
  · rename_i h
    rw [Option.some.injEq]
    constructor
    · intro hf
      have e0 : ((vecScatter N E wf).start (ix1 p) idx 0 + ((vecScatter N E wf).window (ix1 p) 0 : ℤ)).toNat = n.val :=
        congrArg Fin.val (congrFun hf 0)
      have p0 := (h 0).1
      rw [h0] at e0 p0
      omega
    · intro hn
      funext a
      refine Fin.ext ?_
      match a with
      | ⟨0, _⟩ =>
        show ((vecScatter N E wf).start (ix1 p) idx 0 + ((vecScatter N E wf).window (ix1 p) 0 : ℤ)).toNat = n.val
        rw [h0, hn]; simp
  · rename_i h
    constructor
    · intro hf; exact absurd hf (by simp)
    · intro hn
      exfalso
      apply h
      intro a
      match a with
      | ⟨0, _⟩ =>
        show 0 ≤ (vecScatter N E wf).start (ix1 p) idx 0 + ((vecScatter N E wf).window (ix1 p) 0 : ℤ)
          ∧ (vecScatter N E wf).start (ix1 p) idx 0 + ((vecScatter N E wf).window (ix1 p) 0 : ℤ) < (N : ℤ)
        rw [h0, hn]
        have := n.isLt
        omega

/-- THE VECTOR SCATTER-ADD READ AT n: the operand's element plus the updates summed over the positions sent to n. -/
theorem vecScatterAdd_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (n : Fin N) :
    Ideal.hostScatterAdd (vecScatter N E wf) x idx upd (ix1 n)
      = x (ix1 n) + ∑ e ∈ Finset.univ.filter (fun e : Fin E => (idx (ix2 e (0 : Fin 1))).toInt = (n.val : ℤ)),
          upd (ix1 e) := by
  unfold Ideal.hostScatterAdd
  congr 1
  refine Finset.sum_nbij' (fun j => (j 0 : Fin E)) (fun e => ix1 e) ?_ ?_ ?_ ?_ ?_
  · intro j hj
    obtain ⟨p, rfl⟩ : ∃ (p : Fin E), j = ix1 p := ⟨j 0, eq_ix1 j⟩
    rw [Finset.mem_filter] at hj
    exact Finset.mem_filter.mpr ⟨Finset.mem_univ _, (vecScatter_resultIdx?_eq_some_iff wf idx p n).mp hj.2⟩
  · intro e he
    rw [Finset.mem_filter] at he ⊢
    exact ⟨Finset.mem_univ _, (vecScatter_resultIdx?_eq_some_iff wf idx e n).mpr he.2⟩
  · intro j _
    exact (eq_ix1 j).symm
  · intro e _
    rfl
  · intro j _
    exact congrArg upd (eq_ix1 j)

end Idealize.ShloMosaic.RowOps

end
-- ==== Proof.RefValue.lean ====
/-
  The reference program's result, over the extended reals, as the same function of the two arguments, for labels in
  the class range: its two accumulating scatters are the class sums and counts (a row whose label is k adds to class
  k), their quotient the class means; its row gather of the means at a label in [0, 64) is that class's row (the
  wrap of negative labels and the clamp do nothing there), which is the one-hot product; the rest is the same chain.
-/
import proofs.«410830_j15427522527361_3_alg».proof.Proof.Gen.ReferenceIdeal.Run
import proofs.«410830_j15427522527361_3_alg».proof.Proof.Gen.ReferenceIdeal.Read
import proofs.«410830_j15427522527361_3_alg».proof.Proof.Spec
import proofs.«410830_j15427522527361_3_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.ValueIdx

namespace Cert.ReferenceIdeal.RefVal

open Cert.ReferenceIdeal Cert.ReferenceIdeal.Gen

/-- The interclass term as the reference computes it from a [64, 192] table. -/
def tailR {F : FTy → Type} [FloatOps F] (M : FVec F S64x192 .f32) : FVec F S_ .f32 :=
  have t1 : FVec F S64x1x192 .f32 := broadcastInDim S64x1x192 ![0, 2] bcast_S64x192_S64x1x192_0_2 M
  have t2 : FVec F S1x64x192 .f32 := broadcastInDim S1x64x192 ![1, 2] bcast_S64x192_S1x64x192_1_2 M
  have t3 : FVec F S64x64x192 .f32 := broadcastInDim S64x64x192 ![0, 1, 2] bcast_S64x1x192_S64x64x192_0_1_2 t1
  have t4 : FVec F S64x64x192 .f32 := broadcastInDim S64x64x192 ![0, 1, 2] bcast_S1x64x192_S64x64x192_0_1_2 t2
  have t5 : FVec F S64x64x192 .f32 := subf t3 t4
  have t6 : FVec F S64x64x192 .f32 := broadcastInDim S64x64x192 ![] bcast_S_S64x64x192 (constant S_ .f32 0x358637BD#32)
  have t7 : FVec F S64x64x192 .f32 := addf t5 t6
  have t8 : FVec F S64x64x192 .f32 := mulf t7 t7
  have t9 : FVec F S64x64 .f32 := Host.reduceAdd t8 (constant S_ .f32 0x00000000#32) reducesTo_S64x64x192_S64x64_d2 h_S_
  have t10 : FVec F S64x64 .f32 := Host.sqrt t9
  have t11 : IVec S64x64 32 := iotaInDim S64x64 32 0
  have t12 : IVec S64x64 32 := iotaInDim S64x64 32 1
  have t13 : IVec S64x64 32 := broadcastInDim S64x64 ![] bcast_S_S64x64 (constantI S_ 32 0#32)
  have t14 : IVec S64x64 32 := addi t11 t13
  have t15 : IVec S64x64 1 := cmpi .eq t14 t12
  have t16 : FVec F S64x64 .f32 := uitofp .f32 t15
  have t17 : FVec F S64x64 .f32 := broadcastInDim S64x64 ![] bcast_S_S64x64 (constant S_ .f32 0x3F800000#32)
  have t18 : FVec F S64x64 .f32 := subf t17 t16
  have t19 : FVec F S64x64 .f32 := mulf t10 t18
  Host.reduceAdd t19 (constant S_ .f32 0x00000000#32) reducesTo_S64x64_S_d0_1 h_S_

/-- The reference's interclass stage is the tail of its means stage. -/
theorem val_main_v43_eq_tail {F : FTy → Type} [FloatOps F] (x : FVec F S262144x192 .f32) (lab : IVec S262144 32) :
    Cert.ReferenceIdeal.Read.val_main_v43 (F := F) x lab = tailR (Cert.ReferenceIdeal.Read.val_main_v9 (F := F) x lab) := by
  rfl

/-! ## The two accumulating scatters and their quotient -/

open Idealize.ShloMosaic.RowOps in
/-- The class-sum scatter has the dimension numbers of a row scatter: operand [64, 192], one destination word per update row. -/
private theorem scatterSums_eq :
    scatter_S64x192_S262144x1_S262144x192_1_0_0_1
      = rowScatter 64 262144 192 Facts₀.scatter_S64x192_S262144x1_S262144x192_1_0_0_1_wf := rfl

open Idealize.ShloMosaic.RowOps in
/-- The class-count scatter has the dimension numbers of a row scatter: operand [64, 1], one destination word per update row. -/
private theorem scatterCnts_eq :
    scatter_S64x1_S262144x1_S262144x1_1_0_0_1
      = rowScatter 64 262144 1 Facts₀.scatter_S64x1_S262144x1_S262144x1_1_0_0_1_wf := rfl

/-- The broadcast of the labels to a column reads the label of its row. -/
private theorem v1_at (lab : Cert.Cluster.SL.Idx → BitVec 32) (e : Fin 262144) (c : Fin 1) :
    Read.val_main_v1 (F := Ideal) lab (ix2 e c) = lab (ix1 e) := by
  rw [Read.val_main_v1_apply]
  exact congrArg lab (funext fun a => match a with | ⟨0, _⟩ => rfl)

private theorem v6_at (lab : Cert.Cluster.SL.Idx → BitVec 32) (e : Fin 262144) (c : Fin 1) :
    Read.val_main_v6 (F := Ideal) lab (ix2 e c) = lab (ix1 e) := by
  rw [Read.val_main_v6_apply]
  exact congrArg lab (funext fun a => match a with | ⟨0, _⟩ => rfl)

/-- The word 0x3F800000 is the number one. -/
private theorem ofBits_one_f32 : Ideal.ofBits .f32 0x3F800000#32 = 1 := by
  simp [Ideal.ofBits, Ideal.ieee, -EReal.coe_mul]; norm_num

/-- The first scatter is the class sums: it starts from zero and a row whose label is k adds its entries to class k. -/
private theorem v2_at (x : Cert.Cluster.SX.Idx → EReal) (lab : Cert.Cluster.SL.Idx → BitVec 32) (k : Fin 64) (d : Fin 192) :
    Read.val_main_v2 (F := Ideal) x lab (ix2 k d) = Cert.Cluster.sums x lab (ix2 k d) := by
  unfold Read.val_main_v2
  rw [scatterSums_eq]
  simp only [Host.scatterAdd, Ideal.hostScatterAdd_def]
  rw [RowOps.rowScatterAdd_apply, Read.val_main_v0_apply, Read.val_main_cst_apply, Ideal.ofBits_def,
    Ideal.ofBits_zero_f32, zero_add]
  rw [Finset.sum_congr (Finset.filter_congr (q := fun e : Fin 262144 => (lab (ix1 e)).toInt = (k.val : ℤ))
    (fun e _ => by rw [v1_at])) (fun _ _ => rfl)]
  exact Cert.Cluster.sum_filter_label (fun e => lab (ix1 e)) k (fun e => x (ix2 e d))

/-- The second scatter is the class counts: it starts from zero and a row whose label is k adds one to class k. -/
private theorem v8_at (lab : Cert.Cluster.SL.Idx → BitVec 32) (k : Fin 64) (d : Fin 192) :
    Read.val_main_v8 (F := Ideal) lab (ix2 k d) = Cert.Cluster.cnts lab k := by
  rw [Read.val_main_v8_apply]
  have hi : Read.idx_main_v8 (ix2 k d) = ix2 k (0 : Fin 1) :=
    funext fun a => match a with | ⟨0, _⟩ => rfl | ⟨1, _⟩ => rfl
  rw [hi]
  unfold Read.val_main_v7
  rw [scatterCnts_eq]
  simp only [Host.scatterAdd, Ideal.hostScatterAdd_def]
  rw [RowOps.rowScatterAdd_apply, Read.val_main_v5_apply, Read.val_main_cst_1_apply, Ideal.ofBits_def,
    Ideal.ofBits_zero_f32, zero_add]
  rw [Finset.sum_congr (Finset.filter_congr (q := fun e : Fin 262144 => (lab (ix1 e)).toInt = (k.val : ℤ))
    (fun e _ => by rw [v6_at])) (fun e _ => by
      rw [Read.val_main_v4_apply, Read.val_main_cst_0_apply, Ideal.ofBits_def, ofBits_one_f32])]
  rw [Cert.Cluster.sum_filter_label (fun e => lab (ix1 e)) k (fun _ => 1)]
  unfold Cert.Cluster.cnts
  exact Finset.sum_congr rfl (fun e _ => mul_one _)

/-- The reference's means stage is the class means. -/
theorem val_main_v9_eq_means (x : Cert.Cluster.SX.Idx → EReal) (lab : Cert.Cluster.SL.Idx → BitVec 32) :
    (Cert.ReferenceIdeal.Read.val_main_v9 (F := Ideal) x lab : Cert.Cluster.SM.Idx → EReal) = Cert.Cluster.means x lab := by
  funext i
  obtain ⟨k, d, rfl⟩ : ∃ (k : Fin 64) (d : Fin 192), i = ix2 k d := ⟨i 0, i 1, eq_ix2 i⟩
  rw [Read.val_main_v9_apply, Ideal.hostDivf_def, v2_at, v8_at]
  rfl

/-! ## The row gather of the means at a label in the class range -/

open Idealize.ShloMosaic.RowOps in
/-- The gather of the means has the dimension numbers of a row gather: table [64, 192], one start word per result row. -/
private theorem gatherMeans_eq :
    gather_S64x192_S262144x1_S262144x192_1_0_n_n_0_1_1192
      = rowGather 64 262144 192 Facts₀.gather_S64x192_S262144x1_S262144x192_1_0_n_n_0_1_1192_wf := rfl

/-- The start word of row n: the wrap of a negative label by 64 does nothing to a label that is not negative. -/
private theorem v15_at (lab : Cert.Cluster.SL.Idx → BitVec 32) (n : Fin 262144) (c : Fin 1)
    (h0 : 0 ≤ (lab (ix1 n)).toInt) :
    Read.val_main_v15 (F := Ideal) lab (ix2 n c) = lab (ix1 n) := by
  rw [Read.val_main_v15_apply]
  have hi : Read.idx_main_v15 (ix2 n c) = ix1 n := funext fun a => match a with | ⟨0, _⟩ => rfl
  rw [hi, Read.val_main_v14_apply, Read.val_main_v11_apply, Read.val_main_v10_apply, Read.val_main_c_apply]
  have hs : (lab (ix1 n)).slt 0#32 = false := by
    unfold BitVec.slt
    exact decide_eq_false (by rw [BitVec.toInt_zero]; omega)
  have hc : IntOp.cmpi .slt (lab (ix1 n)) 0#32 = 0#1 := by
    show BitVec.ofBool ((lab (ix1 n)).slt 0#32) = 0#1
    rw [hs]; rfl
  rw [hc, select_zero]

/-- The gathered row of row n is the one-hot product of its label with the means: the label is in [0, 64), so the
    clamp does nothing and the word names exactly one class. -/
private theorem v16_at (x : Cert.Cluster.SX.Idx → EReal) (lab : Cert.Cluster.SL.Idx → BitVec 32)
    (n : Fin 262144) (d : Fin 192) (h0 : 0 ≤ (lab (ix1 n)).toInt) (h1 : (lab (ix1 n)).toInt < 64) :
    Read.val_main_v16 (F := Ideal) x lab (ix2 n d)
      = Cert.Cluster.gath (Cert.Cluster.means x lab) (lab (ix1 n)) d := by
  unfold Read.val_main_v16
  rw [gatherMeans_eq, RowOps.rowGather_apply (by decide), val_main_v9_eq_means,
    Cert.Cluster.gath_of_range _ _ h0 h1]
  have hw := v15_at lab n 0 h0
  refine congrArg (Cert.Cluster.means x lab) (congrArg (fun a => ix2 a d) (Fin.ext ?_))
  show min (Read.val_main_v15 (F := Ideal) lab (ix2 n (0 : Fin 1))).toInt.toNat (64 - 1) = (lab (ix1 n)).toInt.toNat
  rw [hw]; omega

/-- The distance stage at row n is the distance of row n from its class's mean. -/
private theorem v22_at (x : Cert.Cluster.SX.Idx → EReal) (lab : Cert.Cluster.SL.Idx → BitVec 32)
    (n : Fin 262144) (h0 : 0 ≤ (lab (ix1 n)).toInt) (h1 : (lab (ix1 n)).toInt < 64) :
    Read.val_main_v22 (F := Ideal) x lab (ix1 n) = Cert.Cluster.rownorm x (Cert.Cluster.means x lab) lab n := by
  rw [Read.val_main_v22_apply, Ideal.hostUnary_sqrt_def, Read.val_main_v21_apply, Read.val_main_cst_4_apply,
    Ideal.ofBits_def, Ideal.ofBits_zero_f32, zero_add]
  unfold Cert.Cluster.rownorm
  refine congrArg Ideal.sqrt (Finset.sum_congr rfl fun d _ => ?_)
  have hi : Read.idx_main_v21 (ix1 n) d = ix2 n d :=
    funext fun a => match a with | ⟨0, _⟩ => rfl | ⟨1, _⟩ => rfl
  rw [hi, Read.val_main_v20_apply, Read.val_main_v19_apply, Read.val_main_v17_apply, Read.val_main_v18_apply,
    Read.val_main_cst_3_apply, v16_at x lab n d h0 h1]
  rfl

/-- A sum over the indices of a vector is the sum over its positions. -/
private theorem sum_idx1 {n : Nat} (f : (⟨1, ![n]⟩ : Shape).Idx → EReal) :
    ∑ j, f j = ∑ a : Fin n, f (ix1 a) :=
  Fintype.sum_equiv ⟨fun j => j 0, ix1, fun j => (eq_ix1 j).symm, fun _ => rfl⟩ f (fun a => f (ix1 a))
    (fun j => congrArg f (eq_ix1 j))

/-- The reference's result for labels in the class range. -/
theorem ref_value (x : Cert.Cluster.SX.Idx → EReal) (lab : Cert.Cluster.SL.Idx → BitVec 32)
    (hlab : ∀ n : Fin 262144, 0 ≤ (lab (ix1 n)).toInt ∧ (lab (ix1 n)).toInt < 64) :
    (Cert.ReferenceIdeal.Read.val_main_v44 (F := Ideal) x lab : S_.Idx → EReal)
      = subf (fun _ => Cert.Cluster.intra x (Cert.Cluster.means x lab) lab)
          (tailR (F := Ideal) (Cert.Cluster.means x lab)) := by
  funext i
  rw [Read.val_main_v44_apply, Ideal.subf_def, subf_apply, val_main_v43_eq_tail, val_main_v9_eq_means,
    Read.val_main_v23_apply, Read.val_main_cst_5_apply, Ideal.ofBits_def, Ideal.ofBits_zero_f32, zero_add, sum_idx1]
  refine congrArg (fun t : EReal => t - tailR (F := Ideal) (Cert.Cluster.means x lab) i) ?_
  unfold Cert.Cluster.intra
  exact Finset.sum_congr rfl fun n _ => v22_at x lab n (hlab n).1 (hlab n).2

end Cert.ReferenceIdeal.RefVal

end
-- ==== Proof.PreDecode.lean ====
/-
  What the precondition says of the labels: it is the conjunction of "every logit is finite" and "every label is at
  least 0 and below 64", each a reduction by "and" over the whole array; where it is all ones, every label's signed
  value is in [0, 64).
-/
import proofs.«410830_j15427522527361_3_alg».proof.Pre_finite_inputs
import proofs.«410830_j15427522527361_3_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

open Idealize.ShloMosaic Idealize.ShloMosaic.ValueIdx

namespace Cert.Pre_finite_inputs.Decode

open Cert.Pre_finite_inputs Cert.Pre_finite_inputs.Gen

/-- A rank-0 shape has one index. -/
private instance scalarIdx_subsingleton : Subsingleton S_.Idx := ⟨fun a b => funext fun d => d.elim0⟩

/-- Under the precondition every label, read signed, is a class index. -/
theorem labels_in_range (x : FVec Ideal S262144x192 .f32) (lab : IVec S262144 32)
    (h : Cert.Pre_finite_inputs.fn (F := Ideal) x lab = fun _ => 1#1) :
    ∀ n : Fin 262144, 0 ≤ (lab (ix1 n)).toInt ∧ (lab (ix1 n)).toInt < 64 := by
  intro n
  -- the one word of the result is the "and" of the two reductions
  have h0 : Cert.Pre_finite_inputs.fn (F := Ideal) x lab ix0 = 1#1 := congrFun h ix0
  unfold Cert.Pre_finite_inputs.fn at h0
  -- its second operand, the reduction over the labels, is therefore 1
  have hlab := (IntOp.andi_eq_one.1 h0).2
  -- a reduction by "and" over every axis that is 1 met a 1 at every position: here at position n
  have hn := Host.reduce_andi_all _ _ _ _ ix0 hlab (ix1 n)
  -- the word at n is the "and" of the two comparisons of label n with the constants 0 and 64
  obtain ⟨hge, hlt⟩ := IntOp.andi_eq_one.1 hn
  have hge' := IntOp.cmpi_sge.1 hge
  have hlt' := IntOp.cmpi_slt.1 hlt
  -- a broadcast scalar constant reads as that constant everywhere, and 0 and 64 read signed are 0 and 64
  have e0 : (0#32 : BitVec 32).toInt = 0 := by decide
  have e64 : (64#32 : BitVec 32).toInt = 64 := by decide
  exact ⟨e0 ▸ hge', e64 ▸ hlt'⟩

end Cert.Pre_finite_inputs.Decode

end
-- ==== Proof.lean ====
/-
  The cluster loss kernel against its jnp reference, over the extended reals.

  Both programs compute, from logits x [262144, 192] and labels in [0, 64):
    means (k, d) = (the sum of the rows of class k, column d) / (the number of rows of class k),
    intra        = the sum over the rows n of sqrt (the sum over d of (x (n, d) - means (label n, d) + eps)^2),
    inter        = the sum over the ordered pairs of distinct classes of the same distance between two rows of means,
  and return intra - inter.  The kernel forms the class sums and counts as one-hot products accumulated over row
  blocks in two halves and adds the halves on the host; it reads a row's class mean as the one-hot product with the
  table; it accumulates the row distances the same way.  The reference scatters rows into their classes and gathers
  the means by label.  Over the extended reals the two are the same finite sums in another order (addition is
  commutative and associative there, 0 * y = 0 and 1 * y = y for every y), the quotient is the same host division of
  the same two numbers, and the interclass term is the same chain of host operations applied to the same table.
  For a label outside [0, 64) the reference's gather wraps and clamps while the one-hot product is zero, so the
  precondition states the label range; it is what the reference's own indexing assumes.
  The three frames: the kernel programs' are the generated ones; the reference's is its run with the result dropped.
-/
import proofs.«410830_j15427522527361_3_alg».proof.Defs
import proofs.«410830_j15427522527361_3_alg».proof.Proof.Gen.Kernel
import proofs.«410830_j15427522527361_3_alg».proof.Proof.Gen.Kernel.Skeleton
import proofs.«410830_j15427522527361_3_alg».proof.Proof.Gen.Kernel.Launch
import proofs.«410830_j15427522527361_3_alg».proof.Proof.Gen.Kernel.Points
import proofs.«410830_j15427522527361_3_alg».proof.Proof.Gen.Kernel.Frame
import proofs.«410830_j15427522527361_3_alg».proof.Proof.Gen.KernelIdeal
import proofs.«410830_j15427522527361_3_alg».proof.Proof.Gen.KernelIdeal.Skeleton
import proofs.«410830_j15427522527361_3_alg».proof.Proof.Gen.KernelIdeal.Launch
import proofs.«410830_j15427522527361_3_alg».proof.Proof.Gen.KernelIdeal.Points
import proofs.«410830_j15427522527361_3_alg».proof.Proof.Gen.KernelIdeal.Frame
import proofs.«410830_j15427522527361_3_alg».proof.Proof.Gen.ReferenceIdeal
import proofs.«410830_j15427522527361_3_alg».proof.Proof.Gen.ReferenceIdeal.Run
import proofs.«410830_j15427522527361_3_alg».proof.Proof.Gen.ReferenceIdeal.Read
import proofs.«410830_j15427522527361_3_alg».proof.Proof.Gen.Pre_finite_inputs
import proofs.«410830_j15427522527361_3_alg».proof.Proof.RunValue
import proofs.«410830_j15427522527361_3_alg».proof.Proof.Glue2
import proofs.«410830_j15427522527361_3_alg».proof.Proof.RefValue
import proofs.«410830_j15427522527361_3_alg».proof.Proof.PreDecode
import Idealize.ShloMosaic.Adequacy
import Idealize.ShloMosaic.Init

set_option maxRecDepth 16384

noncomputable section

namespace Cert.Proof

open Idealize.ShloMosaic Idealize.ShloMosaic.TcCoe Idealize.SL.Sem

/-- The interclass tail is the same chain of host operations in both programs: the two spellings are one term. -/
theorem tail_eq (M : FVec Ideal Cert.KernelIdeal.S64x192 .f32) :
    Cert.KernelIdeal.Val.tailK (F := Ideal) M = Cert.ReferenceIdeal.RefVal.tailR (F := Ideal) M := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the conjunct is `True`. -/
theorem preserves : Cert.preserves_Kernel_KernelIdeal := trivial

/-- Both runs end with the result at intra - inter of the class means of the arguments: the kernel's by the run of
    its segments read back through the host stretches and the two regions, the reference's by its run read stage by
    stage, for labels the precondition puts in the class range. -/
theorem algebraic : Cert.algebraic_KernelIdeal_ReferenceIdeal := by
  intro m ρ m' ρ' hpre hagree
  refine ⟨fun c => Cert.KernelIdeal.Gen.W5 m ρ c (Proc.devRef .tc Cert.KernelIdeal.main_v31),
    Cert.KernelIdeal.Val.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v44_eq, (hagree c).1, (hagree c).2]
  refine (Cert.ReferenceIdeal.RefVal.ref_value _ _
    (Cert.Pre_finite_inputs.Decode.labels_in_range _ _ (hpre c))).trans ?_
  refine Eq.trans ?_ (Cert.KernelIdeal.Val.kernel_value m ρ c).symm
  rw [tail_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
